-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x1x80 : Shape := ⟨3, ![30000, 1, 80]⟩
abbrev S30000x3x80 : Shape := ⟨3, ![30000, 3, 80]⟩
abbrev S30000x5x80 : Shape := ⟨3, ![30000, 5, 80]⟩
abbrev S30000x7x80 : Shape := ⟨3, ![30000, 7, 80]⟩
abbrev S30000x9x80 : Shape := ⟨3, ![30000, 9, 80]⟩
abbrev S30000x11x80 : Shape := ⟨3, ![30000, 11, 80]⟩
abbrev S8000x3x1x80 : Shape := ⟨4, ![8000, 3, 1, 80]⟩
abbrev S8000x3x3x80 : Shape := ⟨4, ![8000, 3, 3, 80]⟩
abbrev S8000x3x5x80 : Shape := ⟨4, ![8000, 3, 5, 80]⟩
abbrev S8000x3x7x80 : Shape := ⟨4, ![8000, 3, 7, 80]⟩
abbrev S8000x3x9x80 : Shape := ⟨4, ![8000, 3, 9, 80]⟩
abbrev S8000x3x11x80 : Shape := ⟨4, ![8000, 3, 11, 80]⟩
abbrev S80x64 : Shape := ⟨2, ![80, 64]⟩
abbrev S_ : Shape := ⟨0, ![]⟩

class Facts : Prop where
  bcast_S_S30000x1x80 : S_.BroadcastsInDim S30000x1x80 (![] : Fin 0 → Fin S30000x1x80.rank)
  reducesTo_S30000x1x80_S_d0_1_2 : S30000x1x80.ReducesTo [0, 1, 2] S_
  h_S_ : 0 < S_.numel
  bcast_S_S30000x3x80 : S_.BroadcastsInDim S30000x3x80 (![] : Fin 0 → Fin S30000x3x80.rank)
  reducesTo_S30000x3x80_S_d0_1_2 : S30000x3x80.ReducesTo [0, 1, 2] S_
  bcast_S_S30000x5x80 : S_.BroadcastsInDim S30000x5x80 (![] : Fin 0 → Fin S30000x5x80.rank)
  reducesTo_S30000x5x80_S_d0_1_2 : S30000x5x80.ReducesTo [0, 1, 2] S_
  bcast_S_S30000x7x80 : S_.BroadcastsInDim S30000x7x80 (![] : Fin 0 → Fin S30000x7x80.rank)
  reducesTo_S30000x7x80_S_d0_1_2 : S30000x7x80.ReducesTo [0, 1, 2] S_
  bcast_S_S30000x9x80 : S_.BroadcastsInDim S30000x9x80 (![] : Fin 0 → Fin S30000x9x80.rank)
  reducesTo_S30000x9x80_S_d0_1_2 : S30000x9x80.ReducesTo [0, 1, 2] S_
  bcast_S_S30000x11x80 : S_.BroadcastsInDim S30000x11x80 (![] : Fin 0 → Fin S30000x11x80.rank)
  reducesTo_S30000x11x80_S_d0_1_2 : S30000x11x80.ReducesTo [0, 1, 2] S_
  bcast_S_S8000x3x1x80 : S_.BroadcastsInDim S8000x3x1x80 (![] : Fin 0 → Fin S8000x3x1x80.rank)
  reducesTo_S8000x3x1x80_S_d0_1_2_3 : S8000x3x1x80.ReducesTo [0, 1, 2, 3] S_
  bcast_S_S8000x3x3x80 : S_.BroadcastsInDim S8000x3x3x80 (![] : Fin 0 → Fin S8000x3x3x80.rank)
  reducesTo_S8000x3x3x80_S_d0_1_2_3 : S8000x3x3x80.ReducesTo [0, 1, 2, 3] S_
  bcast_S_S8000x3x5x80 : S_.BroadcastsInDim S8000x3x5x80 (![] : Fin 0 → Fin S8000x3x5x80.rank)
  reducesTo_S8000x3x5x80_S_d0_1_2_3 : S8000x3x5x80.ReducesTo [0, 1, 2, 3] S_
  bcast_S_S8000x3x7x80 : S_.BroadcastsInDim S8000x3x7x80 (![] : Fin 0 → Fin S8000x3x7x80.rank)
  reducesTo_S8000x3x7x80_S_d0_1_2_3 : S8000x3x7x80.ReducesTo [0, 1, 2, 3] S_
  bcast_S_S8000x3x9x80 : S_.BroadcastsInDim S8000x3x9x80 (![] : Fin 0 → Fin S8000x3x9x80.rank)
  reducesTo_S8000x3x9x80_S_d0_1_2_3 : S8000x3x9x80.ReducesTo [0, 1, 2, 3] S_
  bcast_S_S8000x3x11x80 : S_.BroadcastsInDim S8000x3x11x80 (![] : Fin 0 → Fin S8000x3x11x80.rank)
  reducesTo_S8000x3x11x80_S_d0_1_2_3 : S8000x3x11x80.ReducesTo [0, 1, 2, 3] S_
  bcast_S_S80x64 : S_.BroadcastsInDim S80x64 (![] : Fin 0 → Fin S80x64.rank)
  reducesTo_S80x64_S_d0_1 : S80x64.ReducesTo [0, 1] S_

variable [Facts]

def fn_part5 {F : FTy → Type} [FloatOps F] (main_v83 : IVec S_ 1) (main_v84 : FVec F S80x64 .f32) (main_cst_32 : FVec F S_ .f32) : IVec S_ 1 :=
  let main_v85 : FVec F S80x64 .f32 := broadcastInDim S80x64 ![] bcast_S_S80x64 main_cst_32
  let main_v86 : IVec S80x64 1 := cmpf .olt main_v84 main_v85
  let main_c_33 : IVec S_ 1 := constantI S_ 1 1#1
  let main_v87 : IVec S_ 1 := (fun x v => Host.reduce IntOp.andi x v reducesTo_S80x64_S_d0_1 h_S_) main_v86 main_c_33
  let main_v88 : IVec S_ 1 := andi main_v83 main_v87
  main_v88

def fn_part4 {F : FTy → Type} [FloatOps F] (main_arg14 : FVec F S80x64 .f32) (main_arg15 : FVec F S80x64 .f32) (main_arg16 : FVec F S80x64 .f32) (main_arg17 : FVec F S80x64 .f32) (main_v63 : IVec S_ 1) (main_v67 : IVec S_ 1) : IVec S_ 1 :=
  let main_v68 : IVec S_ 1 := andi main_v63 main_v67
  let main_v69 : FVec F S80x64 .f32 := Host.absf main_arg14
  let main_cst_26 : FVec F S_ .f32 := constant S_ .f32 0x7F800000#32
  let main_v70 : FVec F S80x64 .f32 := broadcastInDim S80x64 ![] bcast_S_S80x64 main_cst_26
  let main_v71 : IVec S80x64 1 := cmpf .olt main_v69 main_v70
  let main_c_27 : IVec S_ 1 := constantI S_ 1 1#1
  let main_v72 : IVec S_ 1 := (fun x v => Host.reduce IntOp.andi x v reducesTo_S80x64_S_d0_1 h_S_) main_v71 main_c_27
  let main_v73 : IVec S_ 1 := andi main_v68 main_v72
  let main_v74 : FVec F S80x64 .f32 := Host.absf main_arg15
  let main_cst_28 : FVec F S_ .f32 := constant S_ .f32 0x7F800000#32
  let main_v75 : FVec F S80x64 .f32 := broadcastInDim S80x64 ![] bcast_S_S80x64 main_cst_28
  let main_v76 : IVec S80x64 1 := cmpf .olt main_v74 main_v75
  let main_c_29 : IVec S_ 1 := constantI S_ 1 1#1
  let main_v77 : IVec S_ 1 := (fun x v => Host.reduce IntOp.andi x v reducesTo_S80x64_S_d0_1 h_S_) main_v76 main_c_29
  let main_v78 : IVec S_ 1 := andi main_v73 main_v77
  let main_v79 : FVec F S80x64 .f32 := Host.absf main_arg16
  let main_cst_30 : FVec F S_ .f32 := constant S_ .f32 0x7F800000#32
  let main_v80 : FVec F S80x64 .f32 := broadcastInDim S80x64 ![] bcast_S_S80x64 main_cst_30
  let main_v81 : IVec S80x64 1 := cmpf .olt main_v79 main_v80
  let main_c_31 : IVec S_ 1 := constantI S_ 1 1#1
  let main_v82 : IVec S_ 1 := (fun x v => Host.reduce IntOp.andi x v reducesTo_S80x64_S_d0_1 h_S_) main_v81 main_c_31
  let main_v83 : IVec S_ 1 := andi main_v78 main_v82
  let main_v84 : FVec F S80x64 .f32 := Host.absf main_arg17
  let main_cst_32 : FVec F S_ .f32 := constant S_ .f32 0x7F800000#32
  fn_part5 (F := F) main_v83 main_v84 main_cst_32

def fn_part3 {F : FTy → Type} [FloatOps F] (main_arg11 : FVec F S8000x3x11x80 .f32) (main_arg12 : FVec F S80x64 .f32) (main_arg13 : FVec F S80x64 .f32) (main_arg14 : FVec F S80x64 .f32) (main_arg15 : FVec F S80x64 .f32) (main_arg16 : FVec F S80x64 .f32) (main_arg17 : FVec F S80x64 .f32) (main_v48 : IVec S_ 1) (main_v49 : FVec F S8000x3x9x80 .f32) (main_v50 : FVec F S8000x3x9x80 .f32) : IVec S_ 1 :=
  let main_v51 : IVec S8000x3x9x80 1 := cmpf .olt main_v49 main_v50
  let main_c_19 : IVec S_ 1 := constantI S_ 1 1#1
  let main_v52 : IVec S_ 1 := (fun x v => Host.reduce IntOp.andi x v reducesTo_S8000x3x9x80_S_d0_1_2_3 h_S_) main_v51 main_c_19
  let main_v53 : IVec S_ 1 := andi main_v48 main_v52
  let main_v54 : FVec F S8000x3x11x80 .f32 := Host.absf main_arg11
  let main_cst_20 : FVec F S_ .f32 := constant S_ .f32 0x7F800000#32
  let main_v55 : FVec F S8000x3x11x80 .f32 := broadcastInDim S8000x3x11x80 ![] bcast_S_S8000x3x11x80 main_cst_20
  let main_v56 : IVec S8000x3x11x80 1 := cmpf .olt main_v54 main_v55
  let main_c_21 : IVec S_ 1 := constantI S_ 1 1#1
  let main_v57 : IVec S_ 1 := (fun x v => Host.reduce IntOp.andi x v reducesTo_S8000x3x11x80_S_d0_1_2_3 h_S_) main_v56 main_c_21
  let main_v58 : IVec S_ 1 := andi main_v53 main_v57
  let main_v59 : FVec F S80x64 .f32 := Host.absf main_arg12
  let main_cst_22 : FVec F S_ .f32 := constant S_ .f32 0x7F800000#32
  let main_v60 : FVec F S80x64 .f32 := broadcastInDim S80x64 ![] bcast_S_S80x64 main_cst_22
  let main_v61 : IVec S80x64 1 := cmpf .olt main_v59 main_v60
  let main_c_23 : IVec S_ 1 := constantI S_ 1 1#1
  let main_v62 : IVec S_ 1 := (fun x v => Host.reduce IntOp.andi x v reducesTo_S80x64_S_d0_1 h_S_) main_v61 main_c_23
  let main_v63 : IVec S_ 1 := andi main_v58 main_v62
  let main_v64 : FVec F S80x64 .f32 := Host.absf main_arg13
  let main_cst_24 : FVec F S_ .f32 := constant S_ .f32 0x7F800000#32
  let main_v65 : FVec F S80x64 .f32 := broadcastInDim S80x64 ![] bcast_S_S80x64 main_cst_24
  let main_v66 : IVec S80x64 1 := cmpf .olt main_v64 main_v65
  let main_c_25 : IVec S_ 1 := constantI S_ 1 1#1
  let main_v67 : IVec S_ 1 := (fun x v => Host.reduce IntOp.andi x v reducesTo_S80x64_S_d0_1 h_S_) main_v66 main_c_25
  fn_part4 (F := F) main_arg14 main_arg15 main_arg16 main_arg17 main_v63 main_v67

def fn_part2 {F : FTy → Type} [FloatOps F] (main_arg7 : FVec F S8000x3x3x80 .f32) (main_arg8 : FVec F S8000x3x5x80 .f32) (main_arg9 : FVec F S8000x3x7x80 .f32) (main_arg10 : FVec F S8000x3x9x80 .f32) (main_arg11 : FVec F S8000x3x11x80 .f32) (main_arg12 : FVec F S80x64 .f32) (main_arg13 : FVec F S80x64 .f32) (main_arg14 : FVec F S80x64 .f32) (main_arg15 : FVec F S80x64 .f32) (main_arg16 : FVec F S80x64 .f32) (main_arg17 : FVec F S80x64 .f32) (main_v33 : IVec S_ 1) : IVec S_ 1 :=
  let main_v34 : FVec F S8000x3x3x80 .f32 := Host.absf main_arg7
  let main_cst_12 : FVec F S_ .f32 := constant S_ .f32 0x7F800000#32
  let main_v35 : FVec F S8000x3x3x80 .f32 := broadcastInDim S8000x3x3x80 ![] bcast_S_S8000x3x3x80 main_cst_12
  let main_v36 : IVec S8000x3x3x80 1 := cmpf .olt main_v34 main_v35
  let main_c_13 : IVec S_ 1 := constantI S_ 1 1#1
  let main_v37 : IVec S_ 1 := (fun x v => Host.reduce IntOp.andi x v reducesTo_S8000x3x3x80_S_d0_1_2_3 h_S_) main_v36 main_c_13
  let main_v38 : IVec S_ 1 := andi main_v33 main_v37
  let main_v39 : FVec F S8000x3x5x80 .f32 := Host.absf main_arg8
  let main_cst_14 : FVec F S_ .f32 := constant S_ .f32 0x7F800000#32
  let main_v40 : FVec F S8000x3x5x80 .f32 := broadcastInDim S8000x3x5x80 ![] bcast_S_S8000x3x5x80 main_cst_14
  let main_v41 : IVec S8000x3x5x80 1 := cmpf .olt main_v39 main_v40
  let main_c_15 : IVec S_ 1 := constantI S_ 1 1#1
  let main_v42 : IVec S_ 1 := (fun x v => Host.reduce IntOp.andi x v reducesTo_S8000x3x5x80_S_d0_1_2_3 h_S_) main_v41 main_c_15
  let main_v43 : IVec S_ 1 := andi main_v38 main_v42
  let main_v44 : FVec F S8000x3x7x80 .f32 := Host.absf main_arg9
  let main_cst_16 : FVec F S_ .f32 := constant S_ .f32 0x7F800000#32
  let main_v45 : FVec F S8000x3x7x80 .f32 := broadcastInDim S8000x3x7x80 ![] bcast_S_S8000x3x7x80 main_cst_16
  let main_v46 : IVec S8000x3x7x80 1 := cmpf .olt main_v44 main_v45
  let main_c_17 : IVec S_ 1 := constantI S_ 1 1#1
  let main_v47 : IVec S_ 1 := (fun x v => Host.reduce IntOp.andi x v reducesTo_S8000x3x7x80_S_d0_1_2_3 h_S_) main_v46 main_c_17
  let main_v48 : IVec S_ 1 := andi main_v43 main_v47
  let main_v49 : FVec F S8000x3x9x80 .f32 := Host.absf main_arg10
  let main_cst_18 : FVec F S_ .f32 := constant S_ .f32 0x7F800000#32
  let main_v50 : FVec F S8000x3x9x80 .f32 := broadcastInDim S8000x3x9x80 ![] bcast_S_S8000x3x9x80 main_cst_18
  fn_part3 (F := F) main_arg11 main_arg12 main_arg13 main_arg14 main_arg15 main_arg16 main_arg17 main_v48 main_v49 main_v50

def fn_part1 {F : FTy → Type} [FloatOps F] (main_arg4 : FVec F S30000x9x80 .f32) (main_arg5 : FVec F S30000x11x80 .f32) (main_arg6 : FVec F S8000x3x1x80 .f32) (main_arg7 : FVec F S8000x3x3x80 .f32) (main_arg8 : FVec F S8000x3x5x80 .f32) (main_arg9 : FVec F S8000x3x7x80 .f32) (main_arg10 : FVec F S8000x3x9x80 .f32) (main_arg11 : FVec F S8000x3x11x80 .f32) (main_arg12 : FVec F S80x64 .f32) (main_arg13 : FVec F S80x64 .f32) (main_arg14 : FVec F S80x64 .f32) (main_arg15 : FVec F S80x64 .f32) (main_arg16 : FVec F S80x64 .f32) (main_arg17 : FVec F S80x64 .f32) (main_v13 : IVec S_ 1) (main_v16 : IVec S30000x7x80 1) : IVec S_ 1 :=
  let main_c_5 : IVec S_ 1 := constantI S_ 1 1#1
  let main_v17 : IVec S_ 1 := (fun x v => Host.reduce IntOp.andi x v reducesTo_S30000x7x80_S_d0_1_2 h_S_) main_v16 main_c_5
  let main_v18 : IVec S_ 1 := andi main_v13 main_v17
  let main_v19 : FVec F S30000x9x80 .f32 := Host.absf main_arg4
  let main_cst_6 : FVec F S_ .f32 := constant S_ .f32 0x7F800000#32
  let main_v20 : FVec F S30000x9x80 .f32 := broadcastInDim S30000x9x80 ![] bcast_S_S30000x9x80 main_cst_6
  let main_v21 : IVec S30000x9x80 1 := cmpf .olt main_v19 main_v20
  let main_c_7 : IVec S_ 1 := constantI S_ 1 1#1
  let main_v22 : IVec S_ 1 := (fun x v => Host.reduce IntOp.andi x v reducesTo_S30000x9x80_S_d0_1_2 h_S_) main_v21 main_c_7
  let main_v23 : IVec S_ 1 := andi main_v18 main_v22
  let main_v24 : FVec F S30000x11x80 .f32 := Host.absf main_arg5
  let main_cst_8 : FVec F S_ .f32 := constant S_ .f32 0x7F800000#32
  let main_v25 : FVec F S30000x11x80 .f32 := broadcastInDim S30000x11x80 ![] bcast_S_S30000x11x80 main_cst_8
  let main_v26 : IVec S30000x11x80 1 := cmpf .olt main_v24 main_v25
  let main_c_9 : IVec S_ 1 := constantI S_ 1 1#1
  let main_v27 : IVec S_ 1 := (fun x v => Host.reduce IntOp.andi x v reducesTo_S30000x11x80_S_d0_1_2 h_S_) main_v26 main_c_9
  let main_v28 : IVec S_ 1 := andi main_v23 main_v27
  let main_v29 : FVec F S8000x3x1x80 .f32 := Host.absf main_arg6
  let main_cst_10 : FVec F S_ .f32 := constant S_ .f32 0x7F800000#32
  let main_v30 : FVec F S8000x3x1x80 .f32 := broadcastInDim S8000x3x1x80 ![] bcast_S_S8000x3x1x80 main_cst_10
  let main_v31 : IVec S8000x3x1x80 1 := cmpf .olt main_v29 main_v30
  let main_c_11 : IVec S_ 1 := constantI S_ 1 1#1
  let main_v32 : IVec S_ 1 := (fun x v => Host.reduce IntOp.andi x v reducesTo_S8000x3x1x80_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S30000x1x80 .f32) (main_arg1 : FVec F S30000x3x80 .f32) (main_arg2 : FVec F S30000x5x80 .f32) (main_arg3 : FVec F S30000x7x80 .f32) (main_arg4 : FVec F S30000x9x80 .f32) (main_arg5 : FVec F S30000x11x80 .f32) (main_arg6 : FVec F S8000x3x1x80 .f32) (main_arg7 : FVec F S8000x3x3x80 .f32) (main_arg8 : FVec F S8000x3x5x80 .f32) (main_arg9 : FVec F S8000x3x7x80 .f32) (main_arg10 : FVec F S8000x3x9x80 .f32) (main_arg11 : FVec F S8000x3x11x80 .f32) (main_arg12 : FVec F S80x64 .f32) (main_arg13 : FVec F S80x64 .f32) (main_arg14 : FVec F S80x64 .f32) (main_arg15 : FVec F S80x64 .f32) (main_arg16 : FVec F S80x64 .f32) (main_arg17 : FVec F S80x64 .f32) : IVec S_ 1 :=
  let main_v0 : FVec F S30000x1x80 .f32 := Host.absf main_arg0
  let main_cst : FVec F S_ .f32 := constant S_ .f32 0x7F800000#32
  let main_v1 : FVec F S30000x1x80 .f32 := broadcastInDim S30000x1x80 ![] bcast_S_S30000x1x80 main_cst
  let main_v2 : IVec S30000x1x80 1 := cmpf .olt main_v0 main_v1
  let main_c : IVec S_ 1 := constantI S_ 1 1#1
  let main_v3 : IVec S_ 1 := (fun x v => Host.reduce IntOp.andi x v reducesTo_S30000x1x80_S_d0_1_2 h_S_) main_v2 main_c
  let main_v4 : FVec F S30000x3x80 .f32 := Host.absf main_arg1
  let main_cst_0 : FVec F S_ .f32 := constant S_ .f32 0x7F800000#32
  let main_v5 : FVec F S30000x3x80 .f32 := broadcastInDim S30000x3x80 ![] bcast_S_S30000x3x80 main_cst_0
  let main_v6 : IVec S30000x3x80 1 := cmpf .olt main_v4 main_v5
  let main_c_1 : IVec S_ 1 := constantI S_ 1 1#1
  let main_v7 : IVec S_ 1 := (fun x v => Host.reduce IntOp.andi x v reducesTo_S30000x3x80_S_d0_1_2 h_S_) main_v6 main_c_1
  let main_v8 : IVec S_ 1 := andi main_v3 main_v7
  let main_v9 : FVec F S30000x5x80 .f32 := Host.absf main_arg2
  let main_cst_2 : FVec F S_ .f32 := constant S_ .f32 0x7F800000#32
  let main_v10 : FVec F S30000x5x80 .f32 := broadcastInDim S30000x5x80 ![] bcast_S_S30000x5x80 main_cst_2
  let main_v11 : IVec S30000x5x80 1 := cmpf .olt main_v9 main_v10
  let main_c_3 : IVec S_ 1 := constantI S_ 1 1#1
  let main_v12 : IVec S_ 1 := (fun x v => Host.reduce IntOp.andi x v reducesTo_S30000x5x80_S_d0_1_2 h_S_) main_v11 main_c_3
  let main_v13 : IVec S_ 1 := andi main_v8 main_v12
  let main_v14 : FVec F S30000x7x80 .f32 := Host.absf main_arg3
  let main_cst_4 : FVec F S_ .f32 := constant S_ .f32 0x7F800000#32
  let main_v15 : FVec F S30000x7x80 .f32 := broadcastInDim S30000x7x80 ![] bcast_S_S30000x7x80 main_cst_4
  let main_v16 : IVec S30000x7x80 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S30000x1x80 : Shape := ⟨3, ![30000, 1, 80]⟩
abbrev S30000x3x80 : Shape := ⟨3, ![30000, 3, 80]⟩
abbrev S30000x5x80 : Shape := ⟨3, ![30000, 5, 80]⟩
abbrev S30000x7x80 : Shape := ⟨3, ![30000, 7, 80]⟩
abbrev S30000x9x80 : Shape := ⟨3, ![30000, 9, 80]⟩
abbrev S30000x11x80 : Shape := ⟨3, ![30000, 11, 80]⟩
abbrev S8000x3x1x80 : Shape := ⟨4, ![8000, 3, 1, 80]⟩
abbrev S8000x3x3x80 : Shape := ⟨4, ![8000, 3, 3, 80]⟩
abbrev S8000x3x5x80 : Shape := ⟨4, ![8000, 3, 5, 80]⟩
abbrev S8000x3x7x80 : Shape := ⟨4, ![8000, 3, 7, 80]⟩
abbrev S8000x3x9x80 : Shape := ⟨4, ![8000, 3, 9, 80]⟩
abbrev S8000x3x11x80 : Shape := ⟨4, ![8000, 3, 11, 80]⟩
abbrev S80x64 : Shape := ⟨2, ![80, 64]⟩
abbrev S30000x80 : Shape := ⟨2, ![30000, 80]⟩
abbrev S30000x64 : Shape := ⟨2, ![30000, 64]⟩
abbrev S6000x80 : Shape := ⟨2, ![6000, 80]⟩
abbrev S6000x64 : Shape := ⟨2, ![6000, 64]⟩
abbrev S24000x80 : Shape := ⟨2, ![24000, 80]⟩
abbrev S24000x64 : Shape := ⟨2, ![24000, 64]⟩
abbrev S90000x80 : Shape := ⟨2, ![90000, 80]⟩
abbrev S90000x64 : Shape := ⟨2, ![90000, 64]⟩
abbrev S72000x80 : Shape := ⟨2, ![72000, 80]⟩
abbrev S72000x64 : Shape := ⟨2, ![72000, 64]⟩
abbrev S150000x80 : Shape := ⟨2, ![150000, 80]⟩
abbrev S150000x64 : Shape := ⟨2, ![150000, 64]⟩
abbrev S120000x80 : Shape := ⟨2, ![120000, 80]⟩
abbrev S120000x64 : Shape := ⟨2, ![120000, 64]⟩
abbrev S210000x80 : Shape := ⟨2, ![210000, 80]⟩
abbrev S210000x64 : Shape := ⟨2, ![210000, 64]⟩
abbrev S168000x80 : Shape := ⟨2, ![168000, 80]⟩
abbrev S168000x64 : Shape := ⟨2, ![168000, 64]⟩
abbrev S270000x80 : Shape := ⟨2, ![270000, 80]⟩
abbrev S270000x64 : Shape := ⟨2, ![270000, 64]⟩
abbrev S216000x80 : Shape := ⟨2, ![216000, 80]⟩
abbrev S216000x64 : Shape := ⟨2, ![216000, 64]⟩
abbrev S330000x80 : Shape := ⟨2, ![330000, 80]⟩
abbrev S330000x64 : Shape := ⟨2, ![330000, 64]⟩
abbrev S264000x80 : Shape := ⟨2, ![264000, 80]⟩
abbrev S264000x64 : Shape := ⟨2, ![264000, 64]⟩
abbrev S1944000x64 : Shape := ⟨2, ![1944000, 64]⟩

abbrev nBuf : Space → Nat
  | .hbm => 43
  | .vmem => 60
  | .smem => 0
  | _ => 0

abbrev bufTy : (tb : Table) → Fin (tcTables nBuf tb) → BufTy
  | .hbm, ⟨0, _⟩ => ⟨S30000x1x80, .f32⟩
  | .hbm, ⟨1, _⟩ => ⟨S30000x3x80, .f32⟩
  | .hbm, ⟨2, _⟩ => ⟨S30000x5x80, .f32⟩
  | .hbm, ⟨3, _⟩ => ⟨S30000x7x80, .f32⟩
  | .hbm, ⟨4, _⟩ => ⟨S30000x9x80, .f32⟩
  | .hbm, ⟨5, _⟩ => ⟨S30000x11x80, .f32⟩
  | .hbm, ⟨6, _⟩ => ⟨S8000x3x1x80, .f32⟩
  | .hbm, ⟨7, _⟩ => ⟨S8000x3x3x80, .f32⟩
  | .hbm, ⟨8, _⟩ => ⟨S8000x3x5x80, .f32⟩
  | .hbm, ⟨9, _⟩ => ⟨S8000x3x7x80, .f32⟩
  | .hbm, ⟨10, _⟩ => ⟨S8000x3x9x80, .f32⟩
  | .hbm, ⟨11, _⟩ => ⟨S8000x3x11x80, .f32⟩
  | .hbm, ⟨12, _⟩ => ⟨S80x64, .f32⟩
  | .hbm, ⟨13, _⟩ => ⟨S80x64, .f32⟩
  | .hbm, ⟨14, _⟩ => ⟨S80x64, .f32⟩
  | .hbm, ⟨15, _⟩ => ⟨S80x64, .f32⟩
  | .hbm, ⟨16, _⟩ => ⟨S80x64, .f32⟩
  | .hbm, ⟨17, _⟩ => ⟨S80x64, .f32⟩
  | .hbm, ⟨18, _⟩ => ⟨S30000x80, .f32⟩
  | .hbm, ⟨19, _⟩ => ⟨S30000x64, .f32⟩
  | .hbm, ⟨20, _⟩ => ⟨S24000x80, .f32⟩
  | .hbm, ⟨21, _⟩ => ⟨S24000x64, .f32⟩
  | .hbm, ⟨22, _⟩ => ⟨S90000x80, .f32⟩
  | .hbm, ⟨23, _⟩ => ⟨S90000x64, .f32⟩
  | .hbm, ⟨24, _⟩ => ⟨S72000x80, .f32⟩
  | .hbm, ⟨25, _⟩ => ⟨S72000x64, .f32⟩
  | .hbm, ⟨26, _⟩ => ⟨S150000x80, .f32⟩
  | .hbm, ⟨27, _⟩ => ⟨S150000x64, .f32⟩
  | .hbm, ⟨28, _⟩ => ⟨S120000x80, .f32⟩
  | .hbm, ⟨29, _⟩ => ⟨S120000x64, .f32⟩
  | .hbm, ⟨30, _⟩ => ⟨S210000x80, .f32⟩
  | .hbm, ⟨31, _⟩ => ⟨S210000x64, .f32⟩
  | .hbm, ⟨32, _⟩ => ⟨S168000x80, .f32⟩
  | .hbm, ⟨33, _⟩ => ⟨S168000x64, .f32⟩
  | .hbm, ⟨34, _⟩ => ⟨S270000x80, .f32⟩
  | .hbm, ⟨35, _⟩ => ⟨S270000x64, .f32⟩
  | .hbm, ⟨36, _⟩ => ⟨S216000x80, .f32⟩
  | .hbm, ⟨37, _⟩ => ⟨S216000x64, .f32⟩
  | .hbm, ⟨38, _⟩ => ⟨S330000x80, .f32⟩
  | .hbm, ⟨39, _⟩ => ⟨S330000x64, .f32⟩
  | .hbm, ⟨40, _⟩ => ⟨S264000x80, .f32⟩
  | .hbm, ⟨41, _⟩ => ⟨S264000x64, .f32⟩
  | .hbm, ⟨42, _⟩ => ⟨S1944000x64, .f32⟩
  | .local _ .vmem, ⟨0, _⟩ => ⟨S6000x80, .f32⟩
  | .local _ .vmem, ⟨1, _⟩ => ⟨S6000x80, .f32⟩
  | .local _ .vmem, ⟨2, _⟩ => ⟨S80x64, .f32⟩
  | .local _ .vmem, ⟨3, _⟩ => ⟨S6000x64, .f32⟩
  | .local _ .vmem, ⟨4, _⟩ => ⟨S6000x64, .f32⟩
  | .local _ .vmem, ⟨5, _⟩ => ⟨S6000x80, .f32⟩
  | .local _ .vmem, ⟨6, _⟩ => ⟨S6000x80, .f32⟩
  | .local _ .vmem, ⟨7, _⟩ => ⟨S80x64, .f32⟩
  | .local _ .vmem, ⟨8, _⟩ => ⟨S6000x64, .f32⟩
  | .local _ .vmem, ⟨9, _⟩ => ⟨S6000x64, .f32⟩
  | .local _ .vmem, ⟨10, _⟩ => ⟨S6000x80, .f32⟩
  | .local _ .vmem, ⟨11, _⟩ => ⟨S6000x80, .f32⟩
  | .local _ .vmem, ⟨12, _⟩ => ⟨S80x64, .f32⟩
  | .local _ .vmem, ⟨13, _⟩ => ⟨S6000x64, .f32⟩
  | .local _ .vmem, ⟨14, _⟩ => ⟨S6000x64, .f32⟩
  | .local _ .vmem, ⟨15, _⟩ => ⟨S6000x80, .f32⟩
  | .local _ .vmem, ⟨16, _⟩ => ⟨S6000x80, .f32⟩
  | .local _ .vmem, ⟨17, _⟩ => ⟨S80x64, .f32⟩
  | .local _ .vmem, ⟨18, _⟩ => ⟨S6000x64, .f32⟩
  | .local _ .vmem, ⟨19, _⟩ => ⟨S6000x64, .f32⟩
  | .local _ .vmem, ⟨20, _⟩ => ⟨S6000x80, .f32⟩
  | .local _ .vmem, ⟨21, _⟩ => ⟨S6000x80, .f32⟩
  | .local _ .vmem, ⟨22, _⟩ => ⟨S80x64, .f32⟩
  | .local _ .vmem, ⟨23, _⟩ => ⟨S6000x64, .f32⟩
  | .local _ .vmem, ⟨24, _⟩ => ⟨S6000x64, .f32⟩
  | .local _ .vmem, ⟨25, _⟩ => ⟨S6000x80, .f32⟩
  | .local _ .vmem, ⟨26, _⟩ => ⟨S6000x80, .f32⟩
  | .local _ .vmem, ⟨27, _⟩ => ⟨S80x64, .f32⟩
  | .local _ .vmem, ⟨28, _⟩ => ⟨S6000x64, .f32⟩
  | .local _ .vmem, ⟨29, _⟩ => ⟨S6000x64, .f32⟩
  | .local _ .vmem, ⟨30, _⟩ => ⟨S6000x80, .f32⟩
  | .local _ .vmem, ⟨31, _⟩ => ⟨S6000x80, .f32⟩
  | .local _ .vmem, ⟨32, _⟩ => ⟨S80x64, .f32⟩
  | .local _ .vmem, ⟨33, _⟩ => ⟨S6000x64, .f32⟩
  | .local _ .vmem, ⟨34, _⟩ => ⟨S6000x64, .f32⟩
  | .local _ .vmem, ⟨35, _⟩ => ⟨S6000x80, .f32⟩
  | .local _ .vmem, ⟨36, _⟩ => ⟨S6000x80, .f32⟩
  | .local _ .vmem, ⟨37, _⟩ => ⟨S80x64, .f32⟩
  | .local _ .vmem, ⟨38, _⟩ => ⟨S6000x64, .f32⟩
  | .local _ .vmem, ⟨39, _⟩ => ⟨S6000x64, .f32⟩
  | .local _ .vmem, ⟨40, _⟩ => ⟨S6000x80, .f32⟩
  | .local _ .vmem, ⟨41, _⟩ => ⟨S6000x80, .f32⟩
  | .local _ .vmem, ⟨42, _⟩ => ⟨S80x64, .f32⟩
  | .local _ .vmem, ⟨43, _⟩ => ⟨S6000x64, .f32⟩
  | .local _ .vmem, ⟨44, _⟩ => ⟨S6000x64, .f32⟩
  | .local _ .vmem, ⟨45, _⟩ => ⟨S6000x80, .f32⟩
  | .local _ .vmem, ⟨46, _⟩ => ⟨S6000x80, .f32⟩
  | .local _ .vmem, ⟨47, _⟩ => ⟨S80x64, .f32⟩
  | .local _ .vmem, ⟨48, _⟩ => ⟨S6000x64, .f32⟩
  | .local _ .vmem, ⟨49, _⟩ => ⟨S6000x64, .f32⟩
  | .local _ .vmem, ⟨50, _⟩ => ⟨S6000x80, .f32⟩
  | .local _ .vmem, ⟨51, _⟩ => ⟨S6000x80, .f32⟩
  | .local _ .vmem, ⟨52, _⟩ => ⟨S80x64, .f32⟩
  | .local _ .vmem, ⟨53, _⟩ => ⟨S6000x64, .f32⟩
  | .local _ .vmem, ⟨54, _⟩ => ⟨S6000x64, .f32⟩
  | .local _ .vmem, ⟨55, _⟩ => ⟨S6000x80, .f32⟩
  | .local _ .vmem, ⟨56, _⟩ => ⟨S6000x80, .f32⟩
  | .local _ .vmem, ⟨57, _⟩ => ⟨S80x64, .f32⟩
  | .local _ .vmem, ⟨58, _⟩ => ⟨S6000x64, .f32⟩
  | .local _ .vmem, ⟨59, _⟩ => ⟨S6000x64, .f32⟩
  | _, _ => ⟨S30000x1x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg2_0 : Ref sig .tc := ⟨.vmem, 58, rfl⟩
abbrev cc11_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S80x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x80 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S80x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S6000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![12], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x80 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S80x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S6000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x80 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S80x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S6000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x80 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S80x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S6000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![35], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6000x80 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S80x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S6000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![28], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6000x80 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S80x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S6000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![45], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S6000x80 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S80x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S6000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![36], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S6000x80 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S80x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S6000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![55], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S6000x80 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S80x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S6000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![44], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S6000x80 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S80x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S6000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

class Facts₀ : Prop where
  shapeCasts_S30000x1x80_S30000x80 : S30000x1x80.ShapeCasts S30000x80
  inb_S6000x80_S6000x80_0_0 : ∀ a, (![0, 0] : Fin 2 → Nat) a + S6000x80.size a ≤ S6000x80.size a
  h_S6000x80 : 0 < S6000x80.numel
  shapeCasts_S6000x80_S6000x80 : S6000x80.ShapeCasts S6000x80
  bitsLt_bf16_f32 : FTy.bits .bf16 < FTy.bits .f32
  inb_S80x64_S80x64_0_0 : ∀ a, (![0, 0] : Fin 2 → Nat) a + S80x64.size a ≤ S80x64.size a
  h_S80x64 : 0 < S80x64.numel
  inb_S6000x64_S6000x64_0_0 : ∀ a, (![0, 0] : Fin 2 → Nat) a + S6000x64.size a ≤ S6000x64.size a
  h_S6000x64 : 0 < S6000x64.numel
  shapeCasts_S8000x3x1x80_S24000x80 : S8000x3x1x80.ShapeCasts S24000x80
  shapeCasts_S30000x3x80_S90000x80 : S30000x3x80.ShapeCasts S90000x80
  shapeCasts_S8000x3x3x80_S72000x80 : S8000x3x3x80.ShapeCasts S72000x80
  shapeCasts_S30000x5x80_S150000x80 : S30000x5x80.ShapeCasts S150000x80
  shapeCasts_S8000x3x5x80_S120000x80 : S8000x3x5x80.ShapeCasts S120000x80
  shapeCasts_S30000x7x80_S210000x80 : S30000x7x80.ShapeCasts S210000x80
  shapeCasts_S8000x3x7x80_S168000x80 : S8000x3x7x80.ShapeCasts S168000x80
  shapeCasts_S30000x9x80_S270000x80 : S30000x9x80.ShapeCasts S270000x80
  shapeCasts_S8000x3x9x80_S216000x80 : S8000x3x9x80.ShapeCasts S216000x80
  shapeCasts_S30000x11x80_S330000x80 : S30000x11x80.ShapeCasts S330000x80
  shapeCasts_S8000x3x11x80_S264000x80 : S8000x3x11x80.ShapeCasts S264000x80
  concatenates_S30000x64_S24000x64_S90000x64_S72000x64_S150000x64_S120000x64_S210000x64_S168000x64_S270000x64_S216000x64_S330000x64_S264000x64_S1944000x64_d0 : Shape.Concatenates [S30000x64, S24000x64, S90000x64, S72000x64, S150000x64, S120000x64, S210000x64, S168000x64, S270000x64, S216000x64, S330000x64, S264000x64] S1944000x64 0
  dot_S6000x80_S80x64_S6000x64_1_0_0_1_n_n_wf : DotDims.WF S6000x80 S80x64 S6000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x80.size a ≤ S30000x80.size a
  hwx0_0 : ∀ i : grid0.Coords, EltTy.bits .f32 = 32 ∨ (Rect.block (s := S30000x80) S6000x80.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x64.size a ≤ S80x64.size a
  hwx0_1 : ∀ i : grid0.Coords, EltTy.bits .f32 = 32 ∨ (Rect.block (s := S80x64) S80x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x64.size a ≤ S30000x64.size a
  hwx0_2 : ∀ i : grid0.Coords, EltTy.bits .f32 = 32 ∨ (Rect.block (s := S30000x64) S6000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x80.size a ≤ S24000x80.size a
  hwx1_0 : ∀ i : grid1.Coords, EltTy.bits .f32 = 32 ∨ (Rect.block (s := S24000x80) S6000x80.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S80x64.size a ≤ S80x64.size a
  hwx1_1 : ∀ i : grid1.Coords, EltTy.bits .f32 = 32 ∨ (Rect.block (s := S80x64) S80x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x64.size a ≤ S24000x64.size a
  hwx1_2 : ∀ i : grid1.Coords, EltTy.bits .f32 = 32 ∨ (Rect.block (s := S24000x64) S6000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x80.size a ≤ S90000x80.size a
  hwx2_0 : ∀ i : grid2.Coords, EltTy.bits .f32 = 32 ∨ (Rect.block (s := S90000x80) S6000x80.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S80x64.size a ≤ S80x64.size a
  hwx2_1 : ∀ i : grid2.Coords, EltTy.bits .f32 = 32 ∨ (Rect.block (s := S80x64) S80x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x64.size a ≤ S90000x64.size a
  hwx2_2 : ∀ i : grid2.Coords, EltTy.bits .f32 = 32 ∨ (Rect.block (s := S90000x64) S6000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x80.size a ≤ S72000x80.size a
  hwx3_0 : ∀ i : grid3.Coords, EltTy.bits .f32 = 32 ∨ (Rect.block (s := S72000x80) S6000x80.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S80x64.size a ≤ S80x64.size a
  hwx3_1 : ∀ i : grid3.Coords, EltTy.bits .f32 = 32 ∨ (Rect.block (s := S80x64) S80x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x64.size a ≤ S72000x64.size a
  hwx3_2 : ∀ i : grid3.Coords, EltTy.bits .f32 = 32 ∨ (Rect.block (s := S72000x64) S6000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x80.size a ≤ S150000x80.size a
  hwx4_0 : ∀ i : grid4.Coords, EltTy.bits .f32 = 32 ∨ (Rect.block (s := S150000x80) S6000x80.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S80x64.size a ≤ S80x64.size a
  hwx4_1 : ∀ i : grid4.Coords, EltTy.bits .f32 = 32 ∨ (Rect.block (s := S80x64) S80x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6000x64.size a ≤ S150000x64.size a
  hwx4_2 : ∀ i : grid4.Coords, EltTy.bits .f32 = 32 ∨ (Rect.block (s := S150000x64) S6000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x80.size a ≤ S120000x80.size a
  hwx5_0 : ∀ i : grid5.Coords, EltTy.bits .f32 = 32 ∨ (Rect.block (s := S120000x80) S6000x80.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S80x64.size a ≤ S80x64.size a
  hwx5_1 : ∀ i : grid5.Coords, EltTy.bits .f32 = 32 ∨ (Rect.block (s := S80x64) S80x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6000x64.size a ≤ S120000x64.size a
  hwx5_2 : ∀ i : grid5.Coords, EltTy.bits .f32 = 32 ∨ (Rect.block (s := S120000x64) S6000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6000x80.size a ≤ S210000x80.size a
  hwx6_0 : ∀ i : grid6.Coords, EltTy.bits .f32 = 32 ∨ (Rect.block (s := S210000x80) S6000x80.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S80x64.size a ≤ S80x64.size a
  hwx6_1 : ∀ i : grid6.Coords, EltTy.bits .f32 = 32 ∨ (Rect.block (s := S80x64) S80x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S6000x64.size a ≤ S210000x64.size a
  hwx6_2 : ∀ i : grid6.Coords, EltTy.bits .f32 = 32 ∨ (Rect.block (s := S210000x64) S6000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6000x80.size a ≤ S168000x80.size a
  hwx7_0 : ∀ i : grid7.Coords, EltTy.bits .f32 = 32 ∨ (Rect.block (s := S168000x80) S6000x80.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S80x64.size a ≤ S80x64.size a
  hwx7_1 : ∀ i : grid7.Coords, EltTy.bits .f32 = 32 ∨ (Rect.block (s := S80x64) S80x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S6000x64.size a ≤ S168000x64.size a
  hwx7_2 : ∀ i : grid7.Coords, EltTy.bits .f32 = 32 ∨ (Rect.block (s := S168000x64) S6000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S6000x80.size a ≤ S270000x80.size a
  hwx8_0 : ∀ i : grid8.Coords, EltTy.bits .f32 = 32 ∨ (Rect.block (s := S270000x80) S6000x80.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S80x64.size a ≤ S80x64.size a
  hwx8_1 : ∀ i : grid8.Coords, EltTy.bits .f32 = 32 ∨ (Rect.block (s := S80x64) S80x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S6000x64.size a ≤ S270000x64.size a
  hwx8_2 : ∀ i : grid8.Coords, EltTy.bits .f32 = 32 ∨ (Rect.block (s := S270000x64) S6000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S6000x80.size a ≤ S216000x80.size a
  hwx9_0 : ∀ i : grid9.Coords, EltTy.bits .f32 = 32 ∨ (Rect.block (s := S216000x80) S6000x80.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S80x64.size a ≤ S80x64.size a
  hwx9_1 : ∀ i : grid9.Coords, EltTy.bits .f32 = 32 ∨ (Rect.block (s := S80x64) S80x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S6000x64.size a ≤ S216000x64.size a
  hwx9_2 : ∀ i : grid9.Coords, EltTy.bits .f32 = 32 ∨ (Rect.block (s := S216000x64) S6000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S6000x80.size a ≤ S330000x80.size a
  hwx10_0 : ∀ i : grid10.Coords, EltTy.bits .f32 = 32 ∨ (Rect.block (s := S330000x80) S6000x80.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S80x64.size a ≤ S80x64.size a
  hwx10_1 : ∀ i : grid10.Coords, EltTy.bits .f32 = 32 ∨ (Rect.block (s := S80x64) S80x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S6000x64.size a ≤ S330000x64.size a
  hwx10_2 : ∀ i : grid10.Coords, EltTy.bits .f32 = 32 ∨ (Rect.block (s := S330000x64) S6000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S6000x80.size a ≤ S264000x80.size a
  hwx11_0 : ∀ i : grid11.Coords, EltTy.bits .f32 = 32 ∨ (Rect.block (s := S264000x80) S6000x80.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S80x64.size a ≤ S80x64.size a
  hwx11_1 : ∀ i : grid11.Coords, EltTy.bits .f32 = 32 ∨ (Rect.block (s := S80x64) S80x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S6000x64.size a ≤ S264000x64.size a
  hwx11_2 : ∀ i : grid11.Coords, EltTy.bits .f32 = 32 ∨ (Rect.block (s := S264000x64) S6000x64.size (cc11_transform_2 i) (hinb11_2 i)).WholeWords (EltTy.packing .f32)

variable [Facts₀]

def dot_S6000x80_S80x64_S6000x64_1_0_0_1_n_n : DotDims S6000x80 S80x64 S6000x64 where
  lhsContracting := [1]
  rhsContracting := [0]
  lhsNonContracting := [0]
  rhsNonContracting := [1]
  lhsBatch := []
  rhsBatch := []
  wf := dot_S6000x80_S80x64_S6000x64_1_0_0_1_n_n_wf

abbrev win0_0 : Pipeline.Window sig grid0 :=
  Pipeline.Window.ofSpec (Memref.whole main_v0) S6000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S80x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S6000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S6000x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S80x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S6000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S6000x80.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S80x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S6000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v6) S6000x80.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S80x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v7) S6000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v8) S6000x80.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S80x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v9) S6000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v10) S6000x80.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S80x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v11) S6000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v12) S6000x80.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S80x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v13) S6000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v14) S6000x80.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg15) S80x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v15) S6000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v16) S6000x80.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg16) S80x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v17) S6000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v18) S6000x80.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg16) S80x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v19) S6000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v20) S6000x80.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg17) S80x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v21) S6000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v22) S6000x80.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg17) S80x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v23) S6000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

class Facts : Prop extends Facts₀ where

variable [Facts]
-- ==== ReferenceIdeal.lean ====
abbrev S30000x1x80 : Shape := ⟨3, ![30000, 1, 80]⟩
abbrev S30000x3x80 : Shape := ⟨3, ![30000, 3, 80]⟩
abbrev S30000x5x80 : Shape := ⟨3, ![30000, 5, 80]⟩
abbrev S30000x7x80 : Shape := ⟨3, ![30000, 7, 80]⟩
abbrev S30000x9x80 : Shape := ⟨3, ![30000, 9, 80]⟩
abbrev S30000x11x80 : Shape := ⟨3, ![30000, 11, 80]⟩
abbrev S8000x3x1x80 : Shape := ⟨4, ![8000, 3, 1, 80]⟩
abbrev S8000x3x3x80 : Shape := ⟨4, ![8000, 3, 3, 80]⟩
abbrev S8000x3x5x80 : Shape := ⟨4, ![8000, 3, 5, 80]⟩
abbrev S8000x3x7x80 : Shape := ⟨4, ![8000, 3, 7, 80]⟩
abbrev S8000x3x9x80 : Shape := ⟨4, ![8000, 3, 9, 80]⟩
abbrev S8000x3x11x80 : Shape := ⟨4, ![8000, 3, 11, 80]⟩
abbrev S80x64 : Shape := ⟨2, ![80, 64]⟩
abbrev S30000x1x64 : Shape := ⟨3, ![30000, 1, 64]⟩
abbrev S8000x3x1x64 : Shape := ⟨4, ![8000, 3, 1, 64]⟩
abbrev S30000x64 : Shape := ⟨2, ![30000, 64]⟩
abbrev S24000x64 : Shape := ⟨2, ![24000, 64]⟩
abbrev S30000x3x64 : Shape := ⟨3, ![30000, 3, 64]⟩
abbrev S8000x3x3x64 : Shape := ⟨4, ![8000, 3, 3, 64]⟩
abbrev S90000x64 : Shape := ⟨2, ![90000, 64]⟩
abbrev S72000x64 : Shape := ⟨2, ![72000, 64]⟩
abbrev S30000x5x64 : Shape := ⟨3, ![30000, 5, 64]⟩
abbrev S8000x3x5x64 : Shape := ⟨4, ![8000, 3, 5, 64]⟩
abbrev S150000x64 : Shape := ⟨2, ![150000, 64]⟩
abbrev S120000x64 : Shape := ⟨2, ![120000, 64]⟩
abbrev S30000x7x64 : Shape := ⟨3, ![30000, 7, 64]⟩
abbrev S8000x3x7x64 : Shape := ⟨4, ![8000, 3, 7, 64]⟩
abbrev S210000x64 : Shape := ⟨2, ![210000, 64]⟩
abbrev S168000x64 : Shape := ⟨2, ![168000, 64]⟩
abbrev S30000x9x64 : Shape := ⟨3, ![30000, 9, 64]⟩
abbrev S8000x3x9x64 : Shape := ⟨4, ![8000, 3, 9, 64]⟩
abbrev S270000x64 : Shape := ⟨2, ![270000, 64]⟩
abbrev S216000x64 : Shape := ⟨2, ![216000, 64]⟩
abbrev S30000x11x64 : Shape := ⟨3, ![30000, 11, 64]⟩
abbrev S8000x3x11x64 : Shape := ⟨4, ![8000, 3, 11, 64]⟩
abbrev S330000x64 : Shape := ⟨2, ![330000, 64]⟩
abbrev S264000x64 : Shape := ⟨2, ![264000, 64]⟩
abbrev S1944000x64 : Shape := ⟨2, ![1944000, 64]⟩

abbrev nBuf : Space → Nat
  | .hbm => 43
  | .vmem => 0
  | .smem => 0
  | _ => 0

abbrev bufTy : (tb : Table) → Fin (tcTables nBuf tb) → BufTy
  | .hbm, ⟨0, _⟩ => ⟨S30000x1x80, .f32⟩
  | .hbm, ⟨1, _⟩ => ⟨S30000x3x80, .f32⟩
  | .hbm, ⟨2, _⟩ => ⟨S30000x5x80, .f32⟩
  | .hbm, ⟨3, _⟩ => ⟨S30000x7x80, .f32⟩
  | .hbm, ⟨4, _⟩ => ⟨S30000x9x80, .f32⟩
  | .hbm, ⟨5, _⟩ => ⟨S30000x11x80, .f32⟩
  | .hbm, ⟨6, _⟩ => ⟨S8000x3x1x80, .f32⟩
  | .hbm, ⟨7, _⟩ => ⟨S8000x3x3x80, .f32⟩
  | .hbm, ⟨8, _⟩ => ⟨S8000x3x5x80, .f32⟩
  | .hbm, ⟨9, _⟩ => ⟨S8000x3x7x80, .f32⟩
  | .hbm, ⟨10, _⟩ => ⟨S8000x3x9x80, .f32⟩
  | .hbm, ⟨11, _⟩ => ⟨S8000x3x11x80, .f32⟩
  | .hbm, ⟨12, _⟩ => ⟨S80x64, .f32⟩
  | .hbm, ⟨13, _⟩ => ⟨S80x64, .f32⟩
  | .hbm, ⟨14, _⟩ => ⟨S80x64, .f32⟩
  | .hbm, ⟨15, _⟩ => ⟨S80x64, .f32⟩
  | .hbm, ⟨16, _⟩ => ⟨S80x64, .f32⟩
  | .hbm, ⟨17, _⟩ => ⟨S80x64, .f32⟩
  | .hbm, ⟨18, _⟩ => ⟨S30000x1x64, .f32⟩
  | .hbm, ⟨19, _⟩ => ⟨S8000x3x1x64, .f32⟩
  | .hbm, ⟨20, _⟩ => ⟨S30000x64, .f32⟩
  | .hbm, ⟨21, _⟩ => ⟨S24000x64, .f32⟩
  | .hbm, ⟨22, _⟩ => ⟨S30000x3x64, .f32⟩
  | .hbm, ⟨23, _⟩ => ⟨S8000x3x3x64, .f32⟩
  | .hbm, ⟨24, _⟩ => ⟨S90000x64, .f32⟩
  | .hbm, ⟨25, _⟩ => ⟨S72000x64, .f32⟩
  | .hbm, ⟨26, _⟩ => ⟨S30000x5x64, .f32⟩
  | .hbm, ⟨27, _⟩ => ⟨S8000x3x5x64, .f32⟩
  | .hbm, ⟨28, _⟩ => ⟨S150000x64, .f32⟩
  | .hbm, ⟨29, _⟩ => ⟨S120000x64, .f32⟩
  | .hbm, ⟨30, _⟩ => ⟨S30000x7x64, .f32⟩
  | .hbm, ⟨31, _⟩ => ⟨S8000x3x7x64, .f32⟩
  | .hbm, ⟨32, _⟩ => ⟨S210000x64, .f32⟩
  | .hbm, ⟨33, _⟩ => ⟨S168000x64, .f32⟩
  | .hbm, ⟨34, _⟩ => ⟨S30000x9x64, .f32⟩
  | .hbm, ⟨35, _⟩ => ⟨S8000x3x9x64, .f32⟩
  | .hbm, ⟨36, _⟩ => ⟨S270000x64, .f32⟩
  | .hbm, ⟨37, _⟩ => ⟨S216000x64, .f32⟩
  | .hbm, ⟨38, _⟩ => ⟨S30000x11x64, .f32⟩
  | .hbm, ⟨39, _⟩ => ⟨S8000x3x11x64, .f32⟩
  | .hbm, ⟨40, _⟩ => ⟨S330000x64, .f32⟩
  | .hbm, ⟨41, _⟩ => ⟨S264000x64, .f32⟩
  | .hbm, ⟨42, _⟩ => ⟨S1944000x64, .f32⟩
  | _, _ => ⟨S30000x1x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]

class Facts₀ : Prop where
  shapeCasts_S30000x1x64_S30000x64 : S30000x1x64.ShapeCasts S30000x64
  shapeCasts_S8000x3x1x64_S24000x64 : S8000x3x1x64.ShapeCasts S24000x64
  shapeCasts_S30000x3x64_S90000x64 : S30000x3x64.ShapeCasts S90000x64
  shapeCasts_S8000x3x3x64_S72000x64 : S8000x3x3x64.ShapeCasts S72000x64
  shapeCasts_S30000x5x64_S150000x64 : S30000x5x64.ShapeCasts S150000x64
  shapeCasts_S8000x3x5x64_S120000x64 : S8000x3x5x64.ShapeCasts S120000x64
  shapeCasts_S30000x7x64_S210000x64 : S30000x7x64.ShapeCasts S210000x64
  shapeCasts_S8000x3x7x64_S168000x64 : S8000x3x7x64.ShapeCasts S168000x64
  shapeCasts_S30000x9x64_S270000x64 : S30000x9x64.ShapeCasts S270000x64
  shapeCasts_S8000x3x9x64_S216000x64 : S8000x3x9x64.ShapeCasts S216000x64
  shapeCasts_S30000x11x64_S330000x64 : S30000x11x64.ShapeCasts S330000x64
  shapeCasts_S8000x3x11x64_S264000x64 : S8000x3x11x64.ShapeCasts S264000x64
  concatenates_S30000x64_S24000x64_S90000x64_S72000x64_S150000x64_S120000x64_S210000x64_S168000x64_S270000x64_S216000x64_S330000x64_S264000x64_S1944000x64_d0 : Shape.Concatenates [S30000x64, S24000x64, S90000x64, S72000x64, S150000x64, S120000x64, S210000x64, S168000x64, S270000x64, S216000x64, S330000x64, S264000x64] S1944000x64 0
  dot_S30000x1x80_S80x64_S30000x1x64_2_0_01_1_n_n_wf : DotDims.WF S30000x1x80 S80x64 S30000x1x64 [2] [0] [0, 1] [1] [] []
  dot_S8000x3x1x80_S80x64_S8000x3x1x64_3_0_012_1_n_n_wf : DotDims.WF S8000x3x1x80 S80x64 S8000x3x1x64 [3] [0] [0, 1, 2] [1] [] []
  dot_S30000x3x80_S80x64_S30000x3x64_2_0_01_1_n_n_wf : DotDims.WF S30000x3x80 S80x64 S30000x3x64 [2] [0] [0, 1] [1] [] []
  dot_S8000x3x3x80_S80x64_S8000x3x3x64_3_0_012_1_n_n_wf : DotDims.WF S8000x3x3x80 S80x64 S8000x3x3x64 [3] [0] [0, 1, 2] [1] [] []
  dot_S30000x5x80_S80x64_S30000x5x64_2_0_01_1_n_n_wf : DotDims.WF S30000x5x80 S80x64 S30000x5x64 [2] [0] [0, 1] [1] [] []
  dot_S8000x3x5x80_S80x64_S8000x3x5x64_3_0_012_1_n_n_wf : DotDims.WF S8000x3x5x80 S80x64 S8000x3x5x64 [3] [0] [0, 1, 2] [1] [] []
  dot_S30000x7x80_S80x64_S30000x7x64_2_0_01_1_n_n_wf : DotDims.WF S30000x7x80 S80x64 S30000x7x64 [2] [0] [0, 1] [1] [] []
  dot_S8000x3x7x80_S80x64_S8000x3x7x64_3_0_012_1_n_n_wf : DotDims.WF S8000x3x7x80 S80x64 S8000x3x7x64 [3] [0] [0, 1, 2] [1] [] []
  dot_S30000x9x80_S80x64_S30000x9x64_2_0_01_1_n_n_wf : DotDims.WF S30000x9x80 S80x64 S30000x9x64 [2] [0] [0, 1] [1] [] []
  dot_S8000x3x9x80_S80x64_S8000x3x9x64_3_0_012_1_n_n_wf : DotDims.WF S8000x3x9x80 S80x64 S8000x3x9x64 [3] [0] [0, 1, 2] [1] [] []
  dot_S30000x11x80_S80x64_S30000x11x64_2_0_01_1_n_n_wf : DotDims.WF S30000x11x80 S80x64 S30000x11x64 [2] [0] [0, 1] [1] [] []
  dot_S8000x3x11x80_S80x64_S8000x3x11x64_3_0_012_1_n_n_wf : DotDims.WF S8000x3x11x80 S80x64 S8000x3x11x64 [3] [0] [0, 1, 2] [1] [] []

variable [Facts₀]

def dot_S30000x1x80_S80x64_S30000x1x64_2_0_01_1_n_n : DotDims S30000x1x80 S80x64 S30000x1x64 where
  lhsContracting := [2]
  rhsContracting := [0]
  lhsNonContracting := [0, 1]
  rhsNonContracting := [1]
  lhsBatch := []
  rhsBatch := []
  wf := dot_S30000x1x80_S80x64_S30000x1x64_2_0_01_1_n_n_wf
def dot_S8000x3x1x80_S80x64_S8000x3x1x64_3_0_012_1_n_n : DotDims S8000x3x1x80 S80x64 S8000x3x1x64 where
  lhsContracting := [3]
  rhsContracting := [0]
  lhsNonContracting := [0, 1, 2]
  rhsNonContracting := [1]
  lhsBatch := []
  rhsBatch := []
  wf := dot_S8000x3x1x80_S80x64_S8000x3x1x64_3_0_012_1_n_n_wf
def dot_S30000x3x80_S80x64_S30000x3x64_2_0_01_1_n_n : DotDims S30000x3x80 S80x64 S30000x3x64 where
  lhsContracting := [2]
  rhsContracting := [0]
  lhsNonContracting := [0, 1]
  rhsNonContracting := [1]
  lhsBatch := []
  rhsBatch := []
  wf := dot_S30000x3x80_S80x64_S30000x3x64_2_0_01_1_n_n_wf
def dot_S8000x3x3x80_S80x64_S8000x3x3x64_3_0_012_1_n_n : DotDims S8000x3x3x80 S80x64 S8000x3x3x64 where
  lhsContracting := [3]
  rhsContracting := [0]
  lhsNonContracting := [0, 1, 2]
  rhsNonContracting := [1]
  lhsBatch := []
  rhsBatch := []
  wf := dot_S8000x3x3x80_S80x64_S8000x3x3x64_3_0_012_1_n_n_wf
def dot_S30000x5x80_S80x64_S30000x5x64_2_0_01_1_n_n : DotDims S30000x5x80 S80x64 S30000x5x64 where
  lhsContracting := [2]
  rhsContracting := [0]
  lhsNonContracting := [0, 1]
  rhsNonContracting := [1]
  lhsBatch := []
  rhsBatch := []
  wf := dot_S30000x5x80_S80x64_S30000x5x64_2_0_01_1_n_n_wf
def dot_S8000x3x5x80_S80x64_S8000x3x5x64_3_0_012_1_n_n : DotDims S8000x3x5x80 S80x64 S8000x3x5x64 where
  lhsContracting := [3]
  rhsContracting := [0]
  lhsNonContracting := [0, 1, 2]
  rhsNonContracting := [1]
  lhsBatch := []
  rhsBatch := []
  wf := dot_S8000x3x5x80_S80x64_S8000x3x5x64_3_0_012_1_n_n_wf
def dot_S30000x7x80_S80x64_S30000x7x64_2_0_01_1_n_n : DotDims S30000x7x80 S80x64 S30000x7x64 where
  lhsContracting := [2]
  rhsContracting := [0]
  lhsNonContracting := [0, 1]
  rhsNonContracting := [1]
  lhsBatch := []
  rhsBatch := []
  wf := dot_S30000x7x80_S80x64_S30000x7x64_2_0_01_1_n_n_wf
def dot_S8000x3x7x80_S80x64_S8000x3x7x64_3_0_012_1_n_n : DotDims S8000x3x7x80 S80x64 S8000x3x7x64 where
  lhsContracting := [3]
  rhsContracting := [0]
  lhsNonContracting := [0, 1, 2]
  rhsNonContracting := [1]
  lhsBatch := []
  rhsBatch := []
  wf := dot_S8000x3x7x80_S80x64_S8000x3x7x64_3_0_012_1_n_n_wf
def dot_S30000x9x80_S80x64_S30000x9x64_2_0_01_1_n_n : DotDims S30000x9x80 S80x64 S30000x9x64 where
  lhsContracting := [2]
  rhsContracting := [0]
  lhsNonContracting := [0, 1]
  rhsNonContracting := [1]
  lhsBatch := []
  rhsBatch := []
  wf := dot_S30000x9x80_S80x64_S30000x9x64_2_0_01_1_n_n_wf
def dot_S8000x3x9x80_S80x64_S8000x3x9x64_3_0_012_1_n_n : DotDims S8000x3x9x80 S80x64 S8000x3x9x64 where
  lhsContracting := [3]
  rhsContracting := [0]
  lhsNonContracting := [0, 1, 2]
  rhsNonContracting := [1]
  lhsBatch := []
  rhsBatch := []
  wf := dot_S8000x3x9x80_S80x64_S8000x3x9x64_3_0_012_1_n_n_wf
def dot_S30000x11x80_S80x64_S30000x11x64_2_0_01_1_n_n : DotDims S30000x11x80 S80x64 S30000x11x64 where
  lhsContracting := [2]
  rhsContracting := [0]
  lhsNonContracting := [0, 1]
  rhsNonContracting := [1]
  lhsBatch := []
  rhsBatch := []
  wf := dot_S30000x11x80_S80x64_S30000x11x64_2_0_01_1_n_n_wf
def dot_S8000x3x11x80_S80x64_S8000x3x11x64_3_0_012_1_n_n : DotDims S8000x3x11x80 S80x64 S8000x3x11x64 where
  lhsContracting := [3]
  rhsContracting := [0]
  lhsNonContracting := [0, 1, 2]
  rhsNonContracting := [1]
  lhsBatch := []
  rhsBatch := []
  wf := dot_S8000x3x11x80_S80x64_S8000x3x11x64_3_0_012_1_n_n_wf

class Facts : Prop extends Facts₀ where

variable [Facts]
-- ==== Proof.KI.Reg0.lean ====
/-
  Region 0 of the program's @main (the pallas_call of pipeline 0): one grid axis, at each point the body loads a
  6000×80 block of rows `x` and the whole 80×64 matrix `w`, and stores the 6000×64 product into the output block.
  Stated at ANY contents `V` of the core's buffers at the region's entry: the blocks the windows stage, what the body
  leaves in the output block as a function of the two input blocks, the body's Hoare triple, the pipeline's proof
  data, and the body obligation the pipeline's launch asks for at every grid point.
-/
import proofs.«162135_j48060684042914_1_alg».proof.Proof.Gen.KernelIdeal.Launch
import proofs.«162135_j48060684042914_1_alg».proof.Proof.Gen.KernelIdeal.Skeleton
import proofs.«162135_j48060684042914_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows `6000·t … 6000·t + 5999` of the row array for window 0, the whole
    matrix for window 1, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row window's staging buffer holds the point's block of rows whenever the body starts, for any proof data
    over the entry contents whose body leaves that buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The matrix window's staging buffer holds the whole matrix at every point: it is fetched once, and its block index
    never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body reads and writes each staging buffer whole. -/
abbrev r0_0 : Rect S6000x80 := Rect.unit (s := S6000x80) ![0, 0] S6000x80.size inb_S6000x80_S6000x80_0_0
abbrev r0_1 : Rect S80x64 := Rect.unit (s := S80x64) ![0, 0] S80x64.size inb_S80x64_S80x64_0_0
abbrev r0_2 : Rect S6000x64 := Rect.unit (s := S6000x64) ![0, 0] S6000x64.size inb_S6000x64_S6000x64_0_0

/-- What the body leaves in the output block: its one whole-block store of the product of the two loaded blocks. -/
def out0_2 (x0 : Vec F S6000x80 .f32) (x1 : Vec F S80x64 .f32) : Vec F S6000x64 .f32 :=
  View.canon [⟨r0_2, k0_pay1 (View.ld x0 r0_0) (View.ld x1 r0_1)⟩]

/-- The one store covers the output block. -/
theorem cover0_2 (p0 : Vec F S6000x64 .f32) (y : S6000x64.Idx) :
    ∃ pc ∈ ([⟨r0_2, p0⟩] : List (View.Piece (Elt F) S6000x64 .f32)), y ∈ pc.1.set :=
  View.cover_of_tiled [⟨r0_2, p0⟩] S6000x64.size (by rfl) y

set_option maxHeartbeats 1000000 in
/-- The body's triple on whole staging buffers: the two inputs at contents `x0`, `x1` and the output at anything; it
    ends with the inputs as they were and the output at `out0_2 x0 x1`. The grid coordinate is not read. -/
theorem sound_kernel0 (c : Dev nD) (E : Set ℕ) (i : grid0.Coords) (arg1 : Memref sig .tc .vmem S6000x80 .f32) (harg1 : arg1.IsWhole) (arg2 : Memref sig .tc .vmem S80x64 .f32) (harg2 : arg2.IsWhole) (arg3 : Memref sig .tc .vmem S6000x64 .f32) (harg3 : arg3.IsWhole)
    (x0 : Vec F S6000x80 .f32) (x1 : Vec F S80x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the output's at the product of the two; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's launch, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Data.lean ====
/-
  Every pipeline's proof data at its region's entry contents, and the part of a core's state that rides beside the
  buffers through every item of @main: the generator register at some state and the core owing nothing.
-/
import proofs.«162135_j48060684042914_1_alg».proof.Proof.KI.Fold

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Pipeline p's proof data: region p's, at the buffer contents its region is entered from. -/
def pdats : (p : Fin 12) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
  | ⟨6, _⟩ => fun c => dat6 (V13 m) c
  | ⟨7, _⟩ => fun c => dat7 (V15 m) c
  | ⟨8, _⟩ => fun c => dat8 (V17 m) c
  | ⟨9, _⟩ => fun c => dat9 (V19 m) c
  | ⟨10, _⟩ => fun c => dat10 (V21 m) c
  | ⟨11, _⟩ => fun c => dat11 (V23 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Fr

end
-- ==== Proof.KI.Seg0.lean ====
/-
  Region 0 of @main as a segment between two thread states: entered with every unscoped buffer at the contents before
  it and left with them at the contents after it. Its three arrays are split out of the unscoped buffers at entry and
  put back at exit; the generator register goes into the pipeline's invariant and comes out; nothing is owed; the
  kernel has no semaphore of its own.
-/
import proofs.«162135_j48060684042914_1_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv (0 : Fin 12) where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv (0 : Fin 12) fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := (0 : Fin 12)) (pcfgs (F := F)) adm (pdats m) launch0.win launch0.arr_whole c
      ((pdats m (0 : Fin 12) c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (0 : Fin 12) c).Φ 0 = Pipeline.ΦA spec0 c from rfl]; unfold Pipeline.ΦA
    iintro ⟨Hp, -, Hr⟩
    isplitl [Hr]; · iexact Hr
    iexact Hp
  hout c := by
    rw [Pipeline.ownSems0_none, show (pdats m (0 : Fin 12) c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 12)) (pcfgs (F := F)) adm (Ix := Unit) (Name := ℕ) (U := UR sig nD τ) (Lvl := ℕ)
      launch0.win launch0.arr_whole c (pdats m) ((pdats m (0 : Fin 12) c).share_full fun _ => rfl)
      (V1 m c) (V2 m c) ((pdats m (0 : Fin 12) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Run.lean ====
/-
  @main as its 25 items in order — a host stretch, then a region, twelve times, then the concatenation — and the run:
  from any memory with zero counters every weakly fair execution terminates, nothing faulting, and the final memory holds
  every unscoped buffer of every core at the last valuation of the table.
-/
import proofs.«162135_j48060684042914_1_alg».proof.Proof.KI.Seg0
import proofs.«162135_j48060684042914_1_alg».proof.Proof.KI.Seg1
import proofs.«162135_j48060684042914_1_alg».proof.Proof.KI.Seg2
import proofs.«162135_j48060684042914_1_alg».proof.Proof.KI.Seg3
import proofs.«162135_j48060684042914_1_alg».proof.Proof.KI.Seg4
import proofs.«162135_j48060684042914_1_alg».proof.Proof.KI.Seg5
import proofs.«162135_j48060684042914_1_alg».proof.Proof.KI.Seg6
import proofs.«162135_j48060684042914_1_alg».proof.Proof.KI.Seg7
import proofs.«162135_j48060684042914_1_alg».proof.Proof.KI.Seg8
import proofs.«162135_j48060684042914_1_alg».proof.Proof.KI.Seg9
import proofs.«162135_j48060684042914_1_alg».proof.Proof.KI.Seg10
import proofs.«162135_j48060684042914_1_alg».proof.Proof.KI.Seg11

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- @main's items as segments: each host stretch from the contents before it, each pallas_call as its region. -/
abbrev allSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)),
    .region (reg6 m),
    .host (hseg hostOps7 hostOps7_sub hostOps7_fresh (W14 m)),
    .region (reg7 m),
    .host (hseg hostOps8 hostOps8_sub hostOps8_fresh (W16 m)),
    .region (reg8 m),
    .host (hseg hostOps9 hostOps9_sub hostOps9_fresh (W18 m)),
    .region (reg9 m),
    .host (hseg hostOps10 hostOps10_sub hostOps10_fresh (W20 m)),
    .region (reg10 m),
    .host (hseg hostOps11 hostOps11_sub hostOps11_fresh (W22 m)),
    .region (reg11 m),
    .host (hseg hostOps12 hostOps12_sub hostOps12_fresh (W24 m)) ]

/-- @main is the run of its segments. -/
theorem main_run (c : Dev nD) : main (F := F) c = Pipeline.Seg.run (allSegs m) := (main_chain c).trans (by chain_rfl)

/-- The last thread state without what the core owes: every unscoped buffer at the last contents, the generator
    register at some state. -/
abbrev Tlast (c : Dev nD) : sProp 𝕄 := iprop(StableHlo.held (c : Thread nD τ) (Pipeline.ucRefs τ sig) (W25 m c) ∗ ∃ r, prngReg c r)

set_option backward.isDefEq.respectTransparency.types false in
/-- THE RUN. Every weakly fair execution of @main from memory `m` with zero counters terminates without a fault, and
    in its final memory every unscoped buffer `b` of core `c` holds `W25 m c b`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W25 m c b) :=
  Pipeline.θ_run_regions_kit (pcfgs (F := F)) adm (pdats m) () cellOf_inj emb₁ defs₀ 𝒱₀ L lv m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl,
      fun c => by
        show iprop(StableHlo.held (c : Thread nD τ) (Pipeline.ucRefs τ sig) (W25 m c)
              ∗ ((∃ r, prngReg c r) ∗ ∃ W, owes (c : Thread nD τ) (0 : CellTallies nD τ sig Unit) W))
          ⊢ iprop((StableHlo.held (c : Thread nD τ) (Pipeline.ucRefs τ sig) (W25 m c) ∗ ∃ r, prngReg c r)
              ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m c b)
    (hfin := fun c s' => by
      iintro ⟨⟨Hh, -⟩, HSI⟩
      unfold StableHlo.held
      imodintro
      iapply (pointsTo_read_all (Pipeline.ucRefs τ sig) (fun b => (((c : Thread nD τ)).1, b)) (W25 m c) s')
      isplitl [Hh] <;> iassumption)
    (hQ := fun s h c => h c)

end Cert.KernelIdeal.Fr

end
-- ==== Proof.KI.Frame.lean ====
/-
  The frame claim at any instance: every weakly fair execution of @main terminates without a fault and every argument
  array ends holding its launch contents — no item of @main writes an argument, so the last valuation of the table
  has it as launched.
-/
import proofs.«162135_j48060684042914_1_alg».proof.Proof.KI.Run
import proofs.«162135_j48060684042914_1_alg».proof.Proof.KI.Chains

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (W25_unwritten m c main_arg0 (by decide)),
      (h c _ (mem_uc main_arg1 (by decide))).trans (W25_unwritten m c main_arg1 (by decide)),
      (h c _ (mem_uc main_arg2 (by decide))).trans (W25_unwritten m c main_arg2 (by decide)),
      (h c _ (mem_uc main_arg3 (by decide))).trans (W25_unwritten m c main_arg3 (by decide)),
      (h c _ (mem_uc main_arg4 (by decide))).trans (W25_unwritten m c main_arg4 (by decide)),
      (h c _ (mem_uc main_arg5 (by decide))).trans (W25_unwritten m c main_arg5 (by decide)),
      (h c _ (mem_uc main_arg6 (by decide))).trans (W25_unwritten m c main_arg6 (by decide)),
      (h c _ (mem_uc main_arg7 (by decide))).trans (W25_unwritten m c main_arg7 (by decide)),
      (h c _ (mem_uc main_arg8 (by decide))).trans (W25_unwritten m c main_arg8 (by decide)),
      (h c _ (mem_uc main_arg9 (by decide))).trans (W25_unwritten m c main_arg9 (by decide)),
      (h c _ (mem_uc main_arg10 (by decide))).trans (W25_unwritten m c main_arg10 (by decide)),
      (h c _ (mem_uc main_arg11 (by decide))).trans (W25_unwritten m c main_arg11 (by decide)),
      (h c _ (mem_uc main_arg12 (by decide))).trans (W25_unwritten m c main_arg12 (by decide)),
      (h c _ (mem_uc main_arg13 (by decide))).trans (W25_unwritten m c main_arg13 (by decide)),
      (h c _ (mem_uc main_arg14 (by decide))).trans (W25_unwritten m c main_arg14 (by decide)),
      (h c _ (mem_uc main_arg15 (by decide))).trans (W25_unwritten m c main_arg15 (by decide)),
      (h c _ (mem_uc main_arg16 (by decide))).trans (W25_unwritten m c main_arg16 (by decide)),
      (h c _ (mem_uc main_arg17 (by decide))).trans (W25_unwritten m c main_arg17 (by decide))⟩) (run_all m ρ)

end Cert.KernelIdeal.Fr

end
-- ==== Proof.Spec.lean ====
/-
  The specification both programs meet, over the extended reals: a block of rows times a fixed matrix.
  `rowsMul M x w` is the `M × 64` array whose entry `(r, b)` is `∑ₖ x[r, k] · w[k, b]`, `k` over the 80 columns.
-/
import Idealize.ShloMosaic.PureOps.Ideal
import Idealize.ShloMosaic.Lib.ValueIdx

noncomputable section

namespace Cert.Spec

open Idealize.ShloMosaic Idealize.ShloMosaic.ValueIdx
open scoped BigOperators

/-- `M` rows of 80 entries times an 80 × 64 matrix. -/
def rowsMul (M : ℕ) (x : (⟨2, ![M, 80]⟩ : Shape).Idx → EReal) (w : (⟨2, ![80, 64]⟩ : Shape).Idx → EReal) :
    (⟨2, ![M, 64]⟩ : Shape).Idx → EReal :=
  fun i => ∑ k : Fin 80, x (ix2 (i 0) k) * w (ix2 k (i 1))

/-- The product at the entry of row `r` and column `b`. -/
theorem rowsMul_ix2 (M : ℕ) (x : (⟨2, ![M, 80]⟩ : Shape).Idx → EReal) (w : (⟨2, ![80, 64]⟩ : Shape).Idx → EReal)
    (r : Fin M) (b : Fin 64) : rowsMul M x w (ix2 r b) = ∑ k : Fin 80, x (ix2 r k) * w (ix2 k b) := rfl

end Cert.Spec

end
-- ==== Proof.KI.Val0.lean ====
/-
  Region 0's output array after the region, at the ideal instance: the product of the region's row array with its
  matrix, entry by entry.
-/
import proofs.«162135_j48060684042914_1_alg».proof.Proof.KI.Reg0
import proofs.«162135_j48060684042914_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The block product at an entry -/

/-- The left operand's index at output entry `i` and contraction index `q`: its row is the output's row. -/
theorem dotl0_row (i : S6000x64.Idx) (q : dot_S6000x80_S80x64_S6000x64_1_0_0_1_n_n.contr.Idx) :
    (dot_S6000x80_S80x64_S6000x64_1_0_0_1_n_n.lhsIdx i q 0).val = (i 0).val := by
  unfold DotDims.lhsIdx
  rw [dif_neg (show ¬(0 : Fin S6000x80.rank) ∈ dot_S6000x80_S80x64_S6000x64_1_0_0_1_n_n.lhsBatch by decide), dif_pos (show (0 : Fin S6000x80.rank) ∈ dot_S6000x80_S80x64_S6000x64_1_0_0_1_n_n.lhsNonContracting by decide)]
  rfl
/-- Its column is the contraction index. -/
theorem dotl0_col (i : S6000x64.Idx) (q : dot_S6000x80_S80x64_S6000x64_1_0_0_1_n_n.contr.Idx) :
    (dot_S6000x80_S80x64_S6000x64_1_0_0_1_n_n.lhsIdx i q 1).val = (q ⟨0, by decide⟩).val :=
  dot_S6000x80_S80x64_S6000x64_1_0_0_1_n_n.lhsIdx_val_of_single rfl i q
/-- The right operand's row is the contraction index. -/
theorem dotr0_row (i : S6000x64.Idx) (q : dot_S6000x80_S80x64_S6000x64_1_0_0_1_n_n.contr.Idx) :
    (dot_S6000x80_S80x64_S6000x64_1_0_0_1_n_n.rhsIdx i q 0).val = (q ⟨0, by decide⟩).val :=
  dot_S6000x80_S80x64_S6000x64_1_0_0_1_n_n.rhsIdx_val_of_single rfl i q
/-- Its column is the output's column. -/
theorem dotr0_col (i : S6000x64.Idx) (q : dot_S6000x80_S80x64_S6000x64_1_0_0_1_n_n.contr.Idx) :
    (dot_S6000x80_S80x64_S6000x64_1_0_0_1_n_n.rhsIdx i q 1).val = (i 1).val := by
  unfold DotDims.rhsIdx
  rw [dif_neg (show ¬(1 : Fin S80x64.rank) ∈ dot_S6000x80_S80x64_S6000x64_1_0_0_1_n_n.rhsBatch by decide), dif_pos (show (1 : Fin S80x64.rank) ∈ dot_S6000x80_S80x64_S6000x64_1_0_0_1_n_n.rhsNonContracting by decide)]
  rfl

/-- What the body stores, at row `r` and column `q` of the block: `∑ₖ x0[r, k] · x1[k, q]` of the two loaded blocks.
    At the ideal values the two narrowings are the identity and the product accumulates into zero. -/
theorem pay0_apply (x0 : Vec Ideal S6000x80 .f32) (x1 : Vec Ideal S80x64 .f32) (r : Fin 6000) (q : Fin 64) :
    (k0_pay1 (F := Ideal) x0 x1 : S6000x64.Idx → EReal) (ix2 r q) = ∑ k : Fin 80, (x0 : S6000x80.Idx → EReal) (ix2 r k) * (x1 : S80x64.Idx → EReal) (ix2 k q) := by
  unfold k0_pay1
  simp only [matmul]
  rw [Ideal.matmul_constant_zero_apply, ← Equiv.sum_comp (ValueIdx.contrEquiv1 dot_S6000x80_S80x64_S6000x64_1_0_0_1_n_n 80 rfl rfl).symm]
  refine Finset.sum_congr rfl fun k _ => ?_
  have hk := ValueIdx.contrEquiv1_symm_val dot_S6000x80_S80x64_S6000x64_1_0_0_1_n_n 80 rfl rfl k
  have el : dot_S6000x80_S80x64_S6000x64_1_0_0_1_n_n.lhsIdx (ix2 r q) ((ValueIdx.contrEquiv1 dot_S6000x80_S80x64_S6000x64_1_0_0_1_n_n 80 rfl rfl).symm k) = ix2 r k := funext fun a => Fin.ext (by
    match a with
    | ⟨0, _⟩ => exact dotl0_row _ _
    | ⟨1, _⟩ => exact (dotl0_col _ _).trans hk)
  have er : dot_S6000x80_S80x64_S6000x64_1_0_0_1_n_n.rhsIdx (ix2 r q) ((ValueIdx.contrEquiv1 dot_S6000x80_S80x64_S6000x64_1_0_0_1_n_n 80 rfl rfl).symm k) = ix2 k q := funext fun a => Fin.ext (by
    match a with
    | ⟨0, _⟩ => exact (dotr0_row _ _).trans hk
    | ⟨1, _⟩ => exact dotr0_col _ _)
  rw [el, er, truncf_apply, truncf_apply, shapeCast_self]

/-! ## One point's block inside the whole product -/

/-- A block product sits in the whole product where its rows do: if the 6000 rows `x0` are rows `n·6000 …` of the row
    array `X` and `x1` is the matrix `W`, then entry `y` of the block product is the entry of `X · W` in row
    `n·6000 + y₀` and column `y₁`. -/
theorem blockmul0 (X : S30000x80.Idx → EReal) (W : S80x64.Idx → EReal)
    (x0 : Vec Ideal S6000x80 .f32) (x1 : Vec Ideal S80x64 .f32) (n : ℕ)
    (hx0 : ∀ (y : S6000x80.Idx) (i : S30000x80.Idx), (i 0).val = n * 6000 + (y 0).val → (i 1).val = (y 1).val →
      (x0 : S6000x80.Idx → EReal) y = X i)
    (hx1 : (x1 : S80x64.Idx → EReal) = W)
    (y : S6000x64.Idx) (i : S30000x64.Idx) (hi0 : (i 0).val = n * 6000 + (y 0).val) (hi1 : (i 1).val = (y 1).val) :
    (k0_pay1 (F := Ideal) x0 x1 : S6000x64.Idx → EReal) y = Cert.Spec.rowsMul 30000 X W i := by
  obtain ⟨r, q, rfl⟩ : ∃ (r : Fin 6000) (q : Fin 64), y = ix2 r q := ⟨y 0, y 1, eq_ix2 y⟩
  obtain ⟨r', q', rfl⟩ : ∃ (r' : Fin 30000) (q' : Fin 64), i = ix2 r' q' := ⟨i 0, i 1, eq_ix2 i⟩
  obtain rfl : q' = q := Fin.ext hi1
  rw [pay0_apply, Cert.Spec.rowsMul_ix2]
  refine Finset.sum_congr rfl fun k _ => ?_
  rw [hx0 (ix2 r k) (ix2 r' k) hi0 rfl, hx1]

/-! ## The blocks the windows stage -/

/-- The store's offsets, and the loads', are zero on both axes. -/
theorem zeros0 : (![0, 0] : Fin 2 → Nat) = fun _ => 0 := funext fun a => by fin_cases a <;> rfl

/-- The index maps over the grid: the row window and the output window are on block `t` of the rows at point `t`, on
    the one block of columns; the matrix window stays on its one block. -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point `t` is rows `6000·t … 6000·t + 5999` of the row array. -/
theorem rows0_apply (c : Dev nD) (t : Fin cfg0.N) (y : S6000x80.Idx) (i : S30000x80.Idx)
    (h0 : (i 0).val = t.val * 6000 + (y 0).val) (h1 : (i 1).val = (y 1).val) :
    (iblk0 V c 0 t : S6000x80.Idx → EReal) y = (V c main_v0 : S30000x80.Idx → EReal) i := by
  obtain ⟨e0, e1, -, -, -, -⟩ := idx0_facts t
  show V c main_v0 (((cfg0.win 0).blk t).view.emb y) = V c main_v0 i
  refine congrArg _ (funext fun a => Fin.ext ?_)
  match a with
  | ⟨0, _⟩ => show win0_0.index t (0 : Fin 2) * 6000 + 1 * (y 0).val = (i 0).val; rw [e0, h0]; omega
  | ⟨1, _⟩ => show win0_0.index t (1 : Fin 2) * 80 + 1 * (y 1).val = (i 1).val; rw [e1, h1]; omega

/-- The matrix window's block at any point is the whole matrix. -/
theorem mat0_eq (c : Dev nD) (t : Fin cfg0.N) :
    (iblk0 V c 1 t : S80x64.Idx → EReal) = (V c main_arg12 : S80x64.Idx → EReal) := by
  obtain ⟨-, -, e2, e3, -, -⟩ := idx0_facts t
  funext y
  show V c main_arg12 (((cfg0.win 1).blk t).view.emb y) = V c main_arg12 y
  refine congrArg _ (funext fun a => Fin.ext ?_)
  match a with
  | ⟨0, _⟩ => show win0_1.index t (0 : Fin 2) * 80 + 1 * (y 0).val = (y 0).val; rw [e2]; omega
  | ⟨1, _⟩ => show win0_1.index t (1 : Fin 2) * 64 + 1 * (y 1).val = (y 1).val; rw [e3]; omega

/-- WHAT POINT `t` WRITES BACK is block `t` of the product of the row array with the matrix. -/
theorem flushed0_eq (c : Dev nD) (t : Fin cfg0.N) :
    (dat0 (F := Ideal) V c).flushed 2 t = ((cfg0.win 2).blk t).view.read (Elt Ideal)
      (Cert.Spec.rowsMul 30000 (V c main_v0 : S30000x80.Idx → EReal) (V c main_arg12 : S80x64.Idx → EReal)) := by
  show (cfg0.win 2).cut (grid0.coords t) ((dat0 V c).after 2 t) = _
  rw [after0_2]
  unfold out0_2
  rw [View.canon_unit_zero zeros0]
  simp only [View.ld_unit_zero (S := S6000x80) zeros0, View.ld_unit_zero (S := S80x64) zeros0]
  obtain ⟨-, -, -, -, e4, e5⟩ := idx0_facts t
  funext j
  show (k0_pay1 (F := Ideal) (iblk0 V c 0 t) (iblk0 V c 1 t) : S6000x64.Idx → EReal) ((cfg0.win 2).xinj (grid0.coords t) j)
    = Cert.Spec.rowsMul 30000 (V c main_v0) (V c main_arg12) (((cfg0.win 2).blk t).view.emb j)
  refine blockmul0 _ _ _ _ t.val (fun y i h0 h1 => rows0_apply V c t y i h0 h1) (mat0_eq V c t) _ _ ?_ ?_
  · show win0_2.index t (0 : Fin 2) * 6000 + 1 * (j 0).val = t.val * 6000 + (j 0).val; rw [e4]; omega
  · show win0_2.index t (1 : Fin 2) * 64 + 1 * (j 1).val = (j 1).val; rw [e5]; omega

/-! ## The blocks tile the array -/

/-- An index of the array is in point `t`'s block iff each coordinate is in the block's range on its axis. -/
theorem mem0_blk (t : Fin cfg0.N) (i : S30000x64.Idx) :
    i ∈ ((cfg0.win 2).blk t).view.set ↔ ∀ a : Fin 2, win0_2.index t a * S6000x64.size a ≤ (i a).val ∧ (i a).val < win0_2.index t a * S6000x64.size a + S6000x64.size a := by
  show i ∈ ((View.whole main_v1).slice (win0_2.rect t)).set ↔ _
  rw [View.set_slice_whole, Rect.mem_set_unit]
  exact Iff.rfl

/-- Row `r` of the array is in the block of point `r / 6000`, which is written back. -/
theorem cover0 (i : S30000x64.Idx) :
    ∃ t : Fin cfg0.N, (cfg0.win 2).flush t = true ∧ i ∈ ((cfg0.win 2).blk t).view.set := by
  have hi0 : (i 0).val < 30000 := (i 0).isLt
  have hi1 : (i 1).val < 64 := (i 1).isLt
  have ht : (i 0).val / 6000 < grid0.N := by rw [N_0]; omega
  obtain ⟨-, -, -, -, e4, e5⟩ := idx0_facts ⟨(i 0).val / 6000, ht⟩
  refine ⟨⟨(i 0).val / 6000, ht⟩, flush0_2 _, ?_⟩
  rw [mem0_blk]
  intro a
  match a with
  | ⟨0, _⟩ =>
    show win0_2.index ⟨(i 0).val / 6000, ht⟩ (0 : Fin 2) * 6000 ≤ (i 0).val ∧ (i 0).val < win0_2.index ⟨(i 0).val / 6000, ht⟩ (0 : Fin 2) * 6000 + 6000
    rw [e4]; show (i 0).val / 6000 * 6000 ≤ (i 0).val ∧ (i 0).val < (i 0).val / 6000 * 6000 + 6000; omega
  | ⟨1, _⟩ =>
    show win0_2.index ⟨(i 0).val / 6000, ht⟩ (1 : Fin 2) * 64 ≤ (i 1).val ∧ (i 1).val < win0_2.index ⟨(i 0).val / 6000, ht⟩ (1 : Fin 2) * 64 + 64
    rw [e5]; omega
/-- After region 0 its output array holds, at row `r` and column `b`, `∑ₖ x[r, k] · w[k, b]` of the row array `x` and
    the matrix `w` the region was entered with. -/
theorem val_arr0 (c : Dev nD) :
    ((dat0 (F := Ideal) V c).arrAt 2 cfg0.N : S30000x64.Idx → EReal)
      = Cert.Spec.rowsMul 30000 (V c main_v0 : S30000x80.Idx → EReal) (V c main_arg12 : S80x64.Idx → EReal) := by
  exact (dat0 (F := Ideal) V c).arrAt_eq_of_cover 2 _ (fun t _ => flushed0_eq V c t) cover0

end Cert.KernelIdeal.Fr

end
-- ==== Proof.KI.Out0.lean ====
/-
  Region 0's output array as the concatenation finds it, in terms of the launch memory: the rows of the region's
  argument (its leading axes flattened) times the region's matrix. The row array the region is entered with is the
  reshape of the argument, which nothing before the region writes; the matrix is an argument; the output is not
  written again before the concatenation.
-/
import proofs.«162135_j48060684042914_1_alg».proof.Proof.KI.Chains
import proofs.«162135_j48060684042914_1_alg».proof.Proof.KI.Val0
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- The row array region 0 is entered with is its argument with the leading axes flattened. -/
theorem rows0 (c : Dev nD) : (V1 m c main_v0 : S30000x80.Idx → EReal)
    = shapeCast S30000x80 (m ((c : Thread nD τ).loc main_arg0)) shapeCasts_S30000x1x80_S30000x80 := by
  have e : (StableHlo.after hostOps0 (W0 m c) (Proc.devRef .tc main_v0) : S30000x80.Idx → EReal)
      = shapeCast S30000x80 (W0 m c (Proc.devRef .tc main_arg0)) shapeCasts_S30000x1x80_S30000x80 := by
    after_results; rfl
  exact e.trans (congrArg (fun x => shapeCast S30000x80 x shapeCasts_S30000x1x80_S30000x80) (W0_unwritten m c main_arg0 (by decide)))

/-- The matrix region 0 is entered with is its argument. -/
theorem mat0 (c : Dev nD) : (V1 m c main_arg12 : S80x64.Idx → EReal) = m ((c : Thread nD τ).loc main_arg12) :=
  W1_unwritten m c main_arg12 (by decide)

/-- At the concatenation's entry region 0's output holds the flattened rows of its argument times its matrix. -/
theorem out_val0 (c : Dev nD) : (W24 m c (Proc.devRef .tc main_v1) : S30000x64.Idx → EReal)
    = Cert.Spec.rowsMul 30000 (shapeCast S30000x80 (m ((c : Thread nD τ).loc main_arg0)) shapeCasts_S30000x1x80_S30000x80)
        (m ((c : Thread nD τ).loc main_arg12)) :=
  (W24_out0 m c).trans ((val_arr0 (V1 m) c).trans (by rw [rows0 m c, mat0 m c]))

end Cert.KernelIdeal.Fr

end
-- ==== Proof.KI.KernelValue.lean ====
/-
  What the program's result array holds at the end, at the ideal instance, in terms of the launch memory: the
  concatenation, in @main's order, of each region's product — the flattened rows of its argument times its matrix.
-/
import proofs.«162135_j48060684042914_1_alg».proof.Proof.KI.Run
import proofs.«162135_j48060684042914_1_alg».proof.Proof.KI.Chains
import proofs.«162135_j48060684042914_1_alg».proof.Proof.KI.Out0
import proofs.«162135_j48060684042914_1_alg».proof.Proof.KI.Out1
import proofs.«162135_j48060684042914_1_alg».proof.Proof.KI.Out2
import proofs.«162135_j48060684042914_1_alg».proof.Proof.KI.Out3
import proofs.«162135_j48060684042914_1_alg».proof.Proof.KI.Out4
import proofs.«162135_j48060684042914_1_alg».proof.Proof.KI.Out5
import proofs.«162135_j48060684042914_1_alg».proof.Proof.KI.Out6
import proofs.«162135_j48060684042914_1_alg».proof.Proof.KI.Out7
import proofs.«162135_j48060684042914_1_alg».proof.Proof.KI.Out8
import proofs.«162135_j48060684042914_1_alg».proof.Proof.KI.Out9
import proofs.«162135_j48060684042914_1_alg».proof.Proof.KI.Out10
import proofs.«162135_j48060684042914_1_alg».proof.Proof.KI.Out11

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- The twelve products concatenated along the rows. -/
def result (c : Dev nD) : S1944000x64.Idx → EReal :=
  concatenate S1944000x64 0 [⟨S30000x64, Cert.Spec.rowsMul 30000 (shapeCast S30000x80 (m ((c : Thread nD τ).loc main_arg0)) shapeCasts_S30000x1x80_S30000x80) (m ((c : Thread nD τ).loc main_arg12))⟩,
    ⟨S24000x64, Cert.Spec.rowsMul 24000 (shapeCast S24000x80 (m ((c : Thread nD τ).loc main_arg6)) shapeCasts_S8000x3x1x80_S24000x80) (m ((c : Thread nD τ).loc main_arg12))⟩,
    ⟨S90000x64, Cert.Spec.rowsMul 90000 (shapeCast S90000x80 (m ((c : Thread nD τ).loc main_arg1)) shapeCasts_S30000x3x80_S90000x80) (m ((c : Thread nD τ).loc main_arg13))⟩,
    ⟨S72000x64, Cert.Spec.rowsMul 72000 (shapeCast S72000x80 (m ((c : Thread nD τ).loc main_arg7)) shapeCasts_S8000x3x3x80_S72000x80) (m ((c : Thread nD τ).loc main_arg13))⟩,
    ⟨S150000x64, Cert.Spec.rowsMul 150000 (shapeCast S150000x80 (m ((c : Thread nD τ).loc main_arg2)) shapeCasts_S30000x5x80_S150000x80) (m ((c : Thread nD τ).loc main_arg14))⟩,
    ⟨S120000x64, Cert.Spec.rowsMul 120000 (shapeCast S120000x80 (m ((c : Thread nD τ).loc main_arg8)) shapeCasts_S8000x3x5x80_S120000x80) (m ((c : Thread nD τ).loc main_arg14))⟩,
    ⟨S210000x64, Cert.Spec.rowsMul 210000 (shapeCast S210000x80 (m ((c : Thread nD τ).loc main_arg3)) shapeCasts_S30000x7x80_S210000x80) (m ((c : Thread nD τ).loc main_arg15))⟩,
    ⟨S168000x64, Cert.Spec.rowsMul 168000 (shapeCast S168000x80 (m ((c : Thread nD τ).loc main_arg9)) shapeCasts_S8000x3x7x80_S168000x80) (m ((c : Thread nD τ).loc main_arg15))⟩,
    ⟨S270000x64, Cert.Spec.rowsMul 270000 (shapeCast S270000x80 (m ((c : Thread nD τ).loc main_arg4)) shapeCasts_S30000x9x80_S270000x80) (m ((c : Thread nD τ).loc main_arg16))⟩,
    ⟨S216000x64, Cert.Spec.rowsMul 216000 (shapeCast S216000x80 (m ((c : Thread nD τ).loc main_arg10)) shapeCasts_S8000x3x9x80_S216000x80) (m ((c : Thread nD τ).loc main_arg16))⟩,
    ⟨S330000x64, Cert.Spec.rowsMul 330000 (shapeCast S330000x80 (m ((c : Thread nD τ).loc main_arg5)) shapeCasts_S30000x11x80_S330000x80) (m ((c : Thread nD τ).loc main_arg17))⟩,
    ⟨S264000x64, Cert.Spec.rowsMul 264000 (shapeCast S264000x80 (m ((c : Thread nD τ).loc main_arg11)) shapeCasts_S8000x3x11x80_S264000x80) (m ((c : Thread nD τ).loc main_arg17))⟩]
    concatenates_S30000x64_S24000x64_S90000x64_S72000x64_S150000x64_S120000x64_S210000x64_S168000x64_S270000x64_S216000x64_S330000x64_S264000x64_S1944000x64_d0

/-- The last valuation has the result array at the concatenation of the twelve products. -/
theorem result_eq (c : Dev nD) : (W25 m c (Proc.devRef .tc main_v24) : S1944000x64.Idx → EReal) = result m c := by
  have e : (StableHlo.after hostOps12 (W24 m c) (Proc.devRef .tc main_v24) : S1944000x64.Idx → EReal)
      = concatenate S1944000x64 0 [⟨S30000x64, W24 m c (Proc.devRef .tc main_v1)⟩,
        ⟨S24000x64, W24 m c (Proc.devRef .tc main_v3)⟩,
        ⟨S90000x64, W24 m c (Proc.devRef .tc main_v5)⟩,
        ⟨S72000x64, W24 m c (Proc.devRef .tc main_v7)⟩,
        ⟨S150000x64, W24 m c (Proc.devRef .tc main_v9)⟩,
        ⟨S120000x64, W24 m c (Proc.devRef .tc main_v11)⟩,
        ⟨S210000x64, W24 m c (Proc.devRef .tc main_v13)⟩,
        ⟨S168000x64, W24 m c (Proc.devRef .tc main_v15)⟩,
        ⟨S270000x64, W24 m c (Proc.devRef .tc main_v17)⟩,
        ⟨S216000x64, W24 m c (Proc.devRef .tc main_v19)⟩,
        ⟨S330000x64, W24 m c (Proc.devRef .tc main_v21)⟩,
        ⟨S264000x64, W24 m c (Proc.devRef .tc main_v23)⟩]
        concatenates_S30000x64_S24000x64_S90000x64_S72000x64_S150000x64_S120000x64_S210000x64_S168000x64_S270000x64_S216000x64_S330000x64_S264000x64_S1944000x64_d0 := by
    after_results; rfl
  refine e.trans ?_
  rw [out_val0 m c, out_val1 m c, out_val2 m c, out_val3 m c, out_val4 m c, out_val5 m c, out_val6 m c, out_val7 m c, out_val8 m c, out_val9 m c, out_val10 m c, out_val11 m c]
  rfl

variable (ρ : Dev nD → PrngReg)

/-- THE VALUE RUN: every weakly fair execution of @main from `m` terminates without a fault, with the result array at
    the concatenation of the twelve products and every argument as launched. -/
theorem run_value : θ_run defs (onTc (τ := τ) (main (F := Ideal))) ⟨m, fun _ => 0, ρ⟩ (fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_v24 (by decide))).trans (result_eq m c),
      (h c _ (mem_uc main_arg0 (by decide))).trans (W25_unwritten m c main_arg0 (by decide)),
      (h c _ (mem_uc main_arg1 (by decide))).trans (W25_unwritten m c main_arg1 (by decide)),
      (h c _ (mem_uc main_arg2 (by decide))).trans (W25_unwritten m c main_arg2 (by decide)),
      (h c _ (mem_uc main_arg3 (by decide))).trans (W25_unwritten m c main_arg3 (by decide)),
      (h c _ (mem_uc main_arg4 (by decide))).trans (W25_unwritten m c main_arg4 (by decide)),
      (h c _ (mem_uc main_arg5 (by decide))).trans (W25_unwritten m c main_arg5 (by decide)),
      (h c _ (mem_uc main_arg6 (by decide))).trans (W25_unwritten m c main_arg6 (by decide)),
      (h c _ (mem_uc main_arg7 (by decide))).trans (W25_unwritten m c main_arg7 (by decide)),
      (h c _ (mem_uc main_arg8 (by decide))).trans (W25_unwritten m c main_arg8 (by decide)),
      (h c _ (mem_uc main_arg9 (by decide))).trans (W25_unwritten m c main_arg9 (by decide)),
      (h c _ (mem_uc main_arg10 (by decide))).trans (W25_unwritten m c main_arg10 (by decide)),
      (h c _ (mem_uc main_arg11 (by decide))).trans (W25_unwritten m c main_arg11 (by decide)),
      (h c _ (mem_uc main_arg12 (by decide))).trans (W25_unwritten m c main_arg12 (by decide)),
      (h c _ (mem_uc main_arg13 (by decide))).trans (W25_unwritten m c main_arg13 (by decide)),
      (h c _ (mem_uc main_arg14 (by decide))).trans (W25_unwritten m c main_arg14 (by decide)),
      (h c _ (mem_uc main_arg15 (by decide))).trans (W25_unwritten m c main_arg15 (by decide)),
      (h c _ (mem_uc main_arg16 (by decide))).trans (W25_unwritten m c main_arg16 (by decide)),
      (h c _ (mem_uc main_arg17 (by decide))).trans (W25_unwritten m c main_arg17 (by decide))⟩) (run_all m ρ)

end Cert.KernelIdeal.Fr

end
-- ==== Proof.Ref.Piece2.lean ====
/-
  The reference's third piece (the rows of `values_l1`): the product `[30000, 3, 80] · [80, 64]` with its two leading
  axes flattened is the product of the flattened rows `[90000, 80]` with the matrix.
-/
import proofs.«162135_j48060684042914_1_alg».proof.Proof.Gen.KernelIdeal
import proofs.«162135_j48060684042914_1_alg».proof.Proof.Gen.ReferenceIdeal.Read
import proofs.«162135_j48060684042914_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx

/-- The number of consecutive flattened rows that come from one leading index: flattened row `r` is entry `r % per2`
    of the leading index `r / per2`. -/
local notation "per2" => (3 : ℕ)

variable {α : Type}

/-- The flattened product read at row `r`, column `b`, is the unflattened one at `(r / per2, r % per2, b)`: the two
    places have the same row-major position. -/
theorem flat_out2 (y : S30000x3x64.Idx → α) (r : Fin 90000) (b : Fin 64) :
    shapeCast S90000x64 y shapeCasts_S30000x3x64_S90000x64 (ix2 r b)
      = y (ix3 (⟨r.val / per2, by have := r.isLt; omega⟩ : Fin 30000) (⟨r.val % per2, by omega⟩ : Fin per2) b) :=
  shapeCast_apply y _ _ _ (by
    rw [Shape.rowMajor_val_three, Shape.rowMajor_val_two]
    show (r.val / per2 * per2 + r.val % per2) * 64 + b.val = r.val * 64 + b.val
    omega)

/-- The flattened left operand read at row `r`, column `k`, is the unflattened one at `(r / per2, r % per2, k)`. -/
theorem flat_in2 (x : S30000x3x80.Idx → α) (r : Fin 90000) (k : Fin 80) :
    shapeCast Cert.KernelIdeal.S90000x80 x Cert.KernelIdeal.Gen.shapeCasts_S30000x3x80_S90000x80 (ix2 r k)
      = x (ix3 (⟨r.val / per2, by have := r.isLt; omega⟩ : Fin 30000) (⟨r.val % per2, by omega⟩ : Fin per2) k) :=
  shapeCast_apply x _ _ _ (by
    rw [Shape.rowMajor_val_three, Shape.rowMajor_val_two]
    show (r.val / per2 * per2 + r.val % per2) * 80 + k.val = r.val * 80 + k.val
    omega)

/-- The product's entry `(s, j, b)` reads the left operand along the contracted axis at `(s, j, k)`. -/
theorem lhs_at2 (s : Fin 30000) (j : Fin per2) (b : Fin 64) (k : Fin 80) :
    Read.lidx_main_v4 (ix3 s j b) k = ix3 s j k := by
  funext d
  match d with
  | ⟨0, _⟩ => rfl
  | ⟨1, _⟩ => rfl
  | ⟨2, _⟩ => rfl

/-- The product's entry `(s, j, b)` reads the matrix along the contracted axis at `(k, b)`. -/
theorem rhs_at2 (s : Fin 30000) (j : Fin per2) (b : Fin 64) (k : Fin 80) :
    Read.ridx_main_v4 (ix3 s j b) k = ix2 k b := by
  funext d
  match d with
  | ⟨0, _⟩ => rfl
  | ⟨1, _⟩ => rfl

/-- Row `r = per2·s + j` of the flattened product is `∑ₖ a[s, j, k] · w[k, b]`, which is row `r` of the flattened `a` times `w`. -/
theorem piece2 (a : FVec Ideal S30000x3x80 .f32) (w : FVec Ideal S80x64 .f32) :
    shapeCast S90000x64 (Host.dotGeneral (F := Ideal) dot_S30000x3x80_S80x64_S30000x3x64_2_0_01_1_n_n none a w) shapeCasts_S30000x3x64_S90000x64
      = Cert.Spec.rowsMul 90000 (shapeCast Cert.KernelIdeal.S90000x80 a Cert.KernelIdeal.Gen.shapeCasts_S30000x3x80_S90000x80) w := by
  funext i
  obtain ⟨r, b, rfl⟩ : ∃ r b, i = ix2 r b := ⟨i 0, i 1, eq_ix2 i⟩
  rw [Cert.Spec.rowsMul_ix2, flat_out2]
  refine (Read.val_main_v4_apply a w _).trans (Finset.sum_congr rfl fun k _ => ?_)
  rw [lhs_at2, rhs_at2, flat_in2]

end Cert.ReferenceIdeal.RefValue

end
-- ==== Proof.Ref.Piece3.lean ====
/-
  The reference's fourth piece: the product `[8000, 3, 3, 80] · [80, 64]` with its three leading axes flattened is the
  product of the flattened rows `[72000, 80]` with the matrix.
-/
import proofs.«162135_j48060684042914_1_alg».proof.Proof.Gen.KernelIdeal
import proofs.«162135_j48060684042914_1_alg».proof.Proof.Gen.ReferenceIdeal.Read
import proofs.«162135_j48060684042914_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx

/-- The number of consecutive flattened rows that come from one pair of leading indices (the extent of the third
    axis): flattened row `r` is entry `r % per3` of the pair numbered `r / per3`, and pair `q` is second index
    `q % 3` of the first index `q / 3`. -/
local notation "per3" => (3 : ℕ)

variable {α : Type}

/-- The flattened product read at row `r`, column `b`, is the unflattened one at
    `(r / per3 / 3, r / per3 % 3, r % per3, b)`: the two places have the same row-major position. -/
theorem flat_out3 (y : S8000x3x3x64.Idx → α) (r : Fin 72000) (b : Fin 64) :
    shapeCast S72000x64 y shapeCasts_S8000x3x3x64_S72000x64 (ix2 r b)
      = y (ix4 (⟨r.val / per3 / 3, by have := r.isLt; omega⟩ : Fin 8000) (⟨r.val / per3 % 3, by omega⟩ : Fin 3)
            (⟨r.val % per3, by omega⟩ : Fin per3) b) :=
  shapeCast_apply y _ _ _ (by
    rw [Shape.rowMajor_val_four, Shape.rowMajor_val_two]
    show ((r.val / per3 / 3 * 3 + r.val / per3 % 3) * per3 + r.val % per3) * 64 + b.val = r.val * 64 + b.val
    omega)

/-- The flattened left operand read at row `r`, column `k`, is the unflattened one at
    `(r / per3 / 3, r / per3 % 3, r % per3, k)`. -/
theorem flat_in3 (x : S8000x3x3x80.Idx → α) (r : Fin 72000) (k : Fin 80) :
    shapeCast Cert.KernelIdeal.S72000x80 x Cert.KernelIdeal.Gen.shapeCasts_S8000x3x3x80_S72000x80 (ix2 r k)
      = x (ix4 (⟨r.val / per3 / 3, by have := r.isLt; omega⟩ : Fin 8000) (⟨r.val / per3 % 3, by omega⟩ : Fin 3)
            (⟨r.val % per3, by omega⟩ : Fin per3) k) :=
  shapeCast_apply x _ _ _ (by
    rw [Shape.rowMajor_val_four, Shape.rowMajor_val_two]
    show ((r.val / per3 / 3 * 3 + r.val / per3 % 3) * per3 + r.val % per3) * 80 + k.val = r.val * 80 + k.val
    omega)

/-- The product's entry `(s, x, j, b)` reads the left operand along the contracted axis at `(s, x, j, k)`. -/
theorem lhs_at3 (s : Fin 8000) (x : Fin 3) (j : Fin per3) (b : Fin 64) (k : Fin 80) :
    Read.lidx_main_v5 (ix4 s x j b) k = ix4 s x j k := by
  funext d
  match d with
  | ⟨0, _⟩ => rfl
  | ⟨1, _⟩ => rfl
  | ⟨2, _⟩ => rfl
  | ⟨3, _⟩ => rfl

/-- The product's entry `(s, x, j, b)` reads the matrix along the contracted axis at `(k, b)`. -/
theorem rhs_at3 (s : Fin 8000) (x : Fin 3) (j : Fin per3) (b : Fin 64) (k : Fin 80) :
    Read.ridx_main_v5 (ix4 s x j b) k = ix2 k b := by
  funext d
  match d with
  | ⟨0, _⟩ => rfl
  | ⟨1, _⟩ => rfl

/-- Row `r = 3·per3·s + per3·x + j` of the flattened product is `∑ₖ a[s, x, j, k] · w[k, b]`, which is row `r` of the
    flattened `a` times `w`. -/
theorem piece3 (a : FVec Ideal S8000x3x3x80 .f32) (w : FVec Ideal S80x64 .f32) :
    shapeCast S72000x64 (Host.dotGeneral (F := Ideal) dot_S8000x3x3x80_S80x64_S8000x3x3x64_3_0_012_1_n_n none a w) shapeCasts_S8000x3x3x64_S72000x64
      = Cert.Spec.rowsMul 72000 (shapeCast Cert.KernelIdeal.S72000x80 a Cert.KernelIdeal.Gen.shapeCasts_S8000x3x3x80_S72000x80) w := by
  funext i
  obtain ⟨r, b, rfl⟩ : ∃ r b, i = ix2 r b := ⟨i 0, i 1, eq_ix2 i⟩
  rw [Cert.Spec.rowsMul_ix2, flat_out3]
  refine (Read.val_main_v5_apply a w _).trans (Finset.sum_congr rfl fun k _ => ?_)
  rw [lhs_at3, rhs_at3, flat_in3]

end Cert.ReferenceIdeal.RefValue

end
-- ==== Proof.lean ====
/-
  The certificate of the twelve-launch row-times-matrix program against its einsum reference.

  The program flattens the leading axes of each of its twelve row arguments, multiplies the rows, 6000 at a time, by
  the argument's 80 × 64 matrix in a pallas_call of its own, and concatenates the twelve products along the rows. The
  reference contracts the last axis of each argument with the matrix, flattens the result's leading axes, and
  concatenates in the same order. Over the extended reals both are, at row `r` of piece `K` and column `b`, the sum over
  the 80 columns of `a_K[r, k] · w_K[k, b]` — the same sum on both sides, so no algebraic law and no finiteness is used.

  The frames: @main is 25 items, a reshape then a pallas_call twelve times and the concatenation; each pallas_call is a
  pipeline region whose body loads two whole blocks and stores one, so its frame is the pipeline launch over a body
  triple; the run of all 25 items leaves every unscoped buffer at the last entry of a table of valuations, in which no
  argument is ever written. The reference is host operations only: its run is read back operation by operation.
  The idealization rewrote nothing, so `preserves` is `True`.
-/
import proofs.«162135_j48060684042914_1_alg».proof.Defs
import proofs.«162135_j48060684042914_1_alg».proof.Proof.Gen.Kernel
import proofs.«162135_j48060684042914_1_alg».proof.Proof.Gen.KernelIdeal
import proofs.«162135_j48060684042914_1_alg».proof.Proof.Gen.ReferenceIdeal
import proofs.«162135_j48060684042914_1_alg».proof.Proof.Gen.Pre_finite_inputs
import proofs.«162135_j48060684042914_1_alg».proof.Proof.Gen.ReferenceIdeal.Run
import proofs.«162135_j48060684042914_1_alg».proof.Proof.K.Frame
import proofs.«162135_j48060684042914_1_alg».proof.Proof.KI.Frame
import proofs.«162135_j48060684042914_1_alg».proof.Proof.KI.KernelValue
import proofs.«162135_j48060684042914_1_alg».proof.Proof.Ref.Piece0
import proofs.«162135_j48060684042914_1_alg».proof.Proof.Ref.Piece1
import proofs.«162135_j48060684042914_1_alg».proof.Proof.Ref.Piece2
import proofs.«162135_j48060684042914_1_alg».proof.Proof.Ref.Piece3
import proofs.«162135_j48060684042914_1_alg».proof.Proof.Ref.Piece4
import proofs.«162135_j48060684042914_1_alg».proof.Proof.Ref.Piece5
import proofs.«162135_j48060684042914_1_alg».proof.Proof.Ref.Piece6
import proofs.«162135_j48060684042914_1_alg».proof.Proof.Ref.Piece7
import proofs.«162135_j48060684042914_1_alg».proof.Proof.Ref.Piece8
import proofs.«162135_j48060684042914_1_alg».proof.Proof.Ref.Piece9
import proofs.«162135_j48060684042914_1_alg».proof.Proof.Ref.Piece10
import proofs.«162135_j48060684042914_1_alg».proof.Proof.Ref.Piece11

set_option maxRecDepth 16384

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.ReferenceIdeal.RefValue in
/-- Both programs end with the concatenation of the twelve products: the kernel's pieces are read off its run, the
    reference's are its contractions with the leading axes flattened, each equal to the product of the flattened rows. -/
theorem algebraic : Cert.algebraic_KernelIdeal_ReferenceIdeal := by
  intro m ρ m' ρ' _ hagree
  refine ⟨fun c => Cert.KernelIdeal.Fr.result m c, Cert.KernelIdeal.Fr.run_value m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17⟩ := hagree c
  rw [piece0, piece1, piece2, piece3, piece4, piece5, piece6, piece7, piece8, piece9, piece10, piece11]
  rw [e0, e1, e2, e3, e4, e5, e6, e7, e8, e9, e10, e11, e12, e13, e14, e15, e16, e17]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
